-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S10000x512 : Shape := ⟨2, ![10000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_

variable [Facts]

def fn {F : FTy → Type} [FloatOps F] (main_arg0 : FVec F S4096x512 .f32) (main_arg1 : FVec F S10000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  main_v8
-- ==== Kernel.lean ====
abbrev S4096x512 : Shape := ⟨2, ![4096, 512]⟩
abbrev S10000x512 : Shape := ⟨2, ![10000, 512]⟩
abbrev S4096x1 : Shape := ⟨2, ![4096, 1]⟩
abbrev S2048x512 : Shape := ⟨2, ![2048, 512]⟩
abbrev S2048x1 : Shape := ⟨2, ![2048, 1]⟩
abbrev S2048 : Shape := ⟨1, ![2048]⟩
abbrev S4096x10000 : Shape := ⟨2, ![4096, 10000]⟩
abbrev S512x512 : Shape := ⟨2, ![512, 512]⟩
abbrev S512x1 : Shape := ⟨2, ![512, 1]⟩
abbrev S2560x512 : Shape := ⟨2, ![2560, 512]⟩
abbrev S512x2560 : Shape := ⟨2, ![512, 2560]⟩
abbrev S1x2560 : Shape := ⟨2, ![1, 2560]⟩
abbrev S2560 : Shape := ⟨1, ![2560]⟩
abbrev S2560x1 : Shape := ⟨2, ![2560, 1]⟩

abbrev nBuf : Space → Nat
  | .hbm => 5
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S10000x512, .f32⟩
  | .hbm, ⟨2, _⟩ => ⟨S4096x512, .bf16⟩
  | .hbm, ⟨3, _⟩ => ⟨S4096x1, .f32⟩
  | .hbm, ⟨4, _⟩ => ⟨S4096x10000, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S2048x1, .f32⟩
  | .local _ .vmem, ⟨5, _⟩ => ⟨S2048x1, .f32⟩
  | .local _ .vmem, ⟨6, _⟩ => ⟨S512x512, .bf16⟩
  | .local _ .vmem, ⟨7, _⟩ => ⟨S512x512, .bf16⟩
  | .local _ .vmem, ⟨8, _⟩ => ⟨S512x1, .f32⟩
  | .local _ .vmem, ⟨9, _⟩ => ⟨S512x1, .f32⟩
  | .local _ .vmem, ⟨10, _⟩ => ⟨S2560x512, .f32⟩
  | .local _ .vmem, ⟨11, _⟩ => ⟨S2560x512, .f32⟩
  | .local _ .vmem, ⟨12, _⟩ => ⟨S512x2560, .f32⟩
  | .local _ .vmem, ⟨13, _⟩ => ⟨S512x2560, .f32⟩
  | .local _ .vmem, ⟨14, _⟩ => ⟨S2560x512, .bf16⟩
  | .local _ .vmem, ⟨15, _⟩ => ⟨S1x2560, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2560x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x2560 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  packedbf16_S2048x512_S2048x512_0_0 : (Rect.unit (s := S2048x512) ![0, 0] S2048x512.size inb_S2048x512_S2048x512_0_0).PackedRows (EltTy.packing .bf16)
  inb_S2048x1_S2048x1_0_0 : ∀ a, (![0, 0] : Fin 2 → Nat) a + S2048x1.size a ≤ S2048x1.size a
  h_S2048x1 : 0 < S2048x1.numel
  inb_S2560x512_S2560x512_0_0 : ∀ a, (![0, 0] : Fin 2 → Nat) a + S2560x512.size a ≤ S2560x512.size a
  h_S2560x512 : 0 < S2560x512.numel
  reduces_S2560x512_S2560 : S2560x512.Reduces [1] S2560
  shapeCasts_S2560_S2560x1 : S2560.ShapeCasts S2560x1
  broadcasts_S2560x1_S2560x512 : S2560x1.Broadcasts S2560x512
  shapeCasts_S2560x512_S2560x512 : S2560x512.ShapeCasts S2560x512
  packedbf16_S2560x512_S2560x512_0_0 : (Rect.unit (s := S2560x512) ![0, 0] S2560x512.size inb_S2560x512_S2560x512_0_0).PackedRows (EltTy.packing .bf16)
  transposes_S2560x1_p1_0_S1x2560 : S2560x1.Transposes [1, 0] S1x2560
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2560 : S512x1.Broadcasts S512x2560
  broadcasts_S1x2560_S512x2560 : S1x2560.Broadcasts S512x2560
  inb_S512x2560_S512x2560_0_0 : ∀ a, (![0, 0] : Fin 2 → Nat) a + S512x2560.size a ≤ S512x2560.size a
  h_S512x2560 : 0 < S512x2560.numel
  dot_S512x512_S2560x512_S512x2560_1_1_0_0_n_n_wf : DotDims.WF S512x512 S2560x512 S512x2560 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .f32 = 32 ∨ (Rect.block (s := S4096x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x512.size a
  hwx0_1 : ∀ i : grid0.Coords, EltTy.bits .bf16 = 32 ∨ (Rect.block (s := S4096x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .bf16 = 32 ∨ (Rect.block (s := S4096x512) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S4096x1.size a
  hwx1_1 : ∀ i : grid1.Coords, EltTy.bits .f32 = 32 ∨ (Rect.block (s := S4096x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S2560x512.size a < S10000x512.size a
  hwx1_2 : ∀ i : grid1.Coords, EltTy.bits .f32 = 32 ∨ (Rect.unit (s := S10000x512) (fun a => cc1_transform_2 i a * S2560x512.size a) (fun a => (Pipeline.Clip.of (cc1_transform_2 i a) (S2560x512.size a) (S10000x512.size a)).extent (S2560x512.size a)) fun a => Pipeline.Clip.inb (Pipeline.Clip.ok_of (hstart1_2 i a))).WholeWords (EltTy.packing .f32)
  hwxs1_2 : ∀ i : grid1.Coords, EltTy.bits .f32 = 32 ∨ (Rect.unit (s := S2560x512) (fun _ => 0) (fun a => (Pipeline.Clip.of (cc1_transform_2 i a) (S2560x512.size a) (S10000x512.size a)).extent (S2560x512.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S512x2560.size a < S4096x10000.size a
  hwx1_3 : ∀ i : grid1.Coords, EltTy.bits .f32 = 32 ∨ (Rect.unit (s := S4096x10000) (fun a => cc1_transform_3 i a * S512x2560.size a) (fun a => (Pipeline.Clip.of (cc1_transform_3 i a) (S512x2560.size a) (S4096x10000.size a)).extent (S512x2560.size a)) fun a => Pipeline.Clip.inb (Pipeline.Clip.ok_of (hstart1_3 i a))).WholeWords (EltTy.packing .f32)
  hwxs1_3 : ∀ i : grid1.Coords, EltTy.bits .f32 = 32 ∨ (Rect.unit (s := S512x2560) (fun _ => 0) (fun a => (Pipeline.Clip.of (cc1_transform_3 i a) (S512x2560.size a) (S4096x10000.size a)).extent (S512x2560.size a)) fun a => (Nat.zero_add _).trans_le (Pipeline.Clip.extent_le (Pipeline.Clip.ok_of (hstart1_3 i a)))).WholeWords (EltTy.packing .f32)

variable [Facts₀]

def dot_S512x512_S2560x512_S512x2560_1_1_0_0_n_n : DotDims S512x512 S2560x512 S512x2560 where
  lhsContracting := [1]
  rhsContracting := [1]
  lhsNonContracting := [0]
  rhsNonContracting := [0]
  lhsBatch := []
  rhsBatch := []
  wf := dot_S512x512_S2560x512_S512x2560_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S2048x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpecClip (Memref.whole main_arg1) S2560x512.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v1) S512x2560.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x512 : Shape := ⟨2, ![4096, 512]⟩
abbrev S10000x512 : Shape := ⟨2, ![10000, 512]⟩
abbrev S_ : Shape := ⟨0, ![]⟩
abbrev S4096 : Shape := ⟨1, ![4096]⟩
abbrev S4096x1 : Shape := ⟨2, ![4096, 1]⟩
abbrev S10000 : Shape := ⟨1, ![10000]⟩
abbrev S10000x1 : Shape := ⟨2, ![10000, 1]⟩
abbrev S4096x10000 : Shape := ⟨2, ![4096, 10000]⟩
abbrev S1x10000 : Shape := ⟨2, ![1, 10000]⟩

abbrev nBuf : Space → Nat
  | .hbm => 44
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S10000x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S10000x512, .f32⟩
  | .hbm, ⟨16, _⟩ => ⟨S_, .f32⟩
  | .hbm, ⟨17, _⟩ => ⟨S10000, .f32⟩
  | .hbm, ⟨18, _⟩ => ⟨S10000x1, .f32⟩
  | .hbm, ⟨19, _⟩ => ⟨S_, .f32⟩
  | .hbm, ⟨20, _⟩ => ⟨S10000x1, .f32⟩
  | .hbm, ⟨21, _⟩ => ⟨S10000x1, .f32⟩
  | .hbm, ⟨22, _⟩ => ⟨S10000x1, .f32⟩
  | .hbm, ⟨23, _⟩ => ⟨S10000x512, .f32⟩
  | .hbm, ⟨24, _⟩ => ⟨S10000x512, .f32⟩
  | .hbm, ⟨25, _⟩ => ⟨S_, .f32⟩
  | .hbm, ⟨26, _⟩ => ⟨S10000x512, .f32⟩
  | .hbm, ⟨27, _⟩ => ⟨S10000x512, .f32⟩
  | .hbm, ⟨28, _⟩ => ⟨S4096x512, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S10000x512, .f32⟩
  | .hbm, ⟨33, _⟩ => ⟨S_, .f32⟩
  | .hbm, ⟨34, _⟩ => ⟨S10000, .f32⟩
  | .hbm, ⟨35, _⟩ => ⟨S4096x10000, .f32⟩
  | .hbm, ⟨36, _⟩ => ⟨S1x10000, .f32⟩
  | .hbm, ⟨37, _⟩ => ⟨S4096x10000, .f32⟩
  | .hbm, ⟨38, _⟩ => ⟨S4096x10000, .f32⟩
  | .hbm, ⟨39, _⟩ => ⟨S4096x10000, .f32⟩
  | .hbm, ⟨40, _⟩ => ⟨S_, .f32⟩
  | .hbm, ⟨41, _⟩ => ⟨S4096x10000, .f32⟩
  | .hbm, ⟨42, _⟩ => ⟨S4096x10000, .f32⟩
  | .hbm, ⟨43, _⟩ => ⟨S4096x10000, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  reducesTo_S10000x512_S10000_d1 : S10000x512.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  bcast_S_S4096x10000 : S_.BroadcastsInDim S4096x10000 (![] : Fin 0 → Fin S4096x10000.rank)
  dot_S4096x512_S10000x512_S4096x10000_1_1_0_0_n_n_wf : DotDims.WF S4096x512 S10000x512 S4096x10000 [1] [1] [0] [0] [] []

variable [Facts₀]

def dot_S4096x512_S10000x512_S4096x10000_1_1_0_0_n_n : DotDims S4096x512 S10000x512 S4096x10000 where
  lhsContracting := [1]
  rhsContracting := [1]
  lhsNonContracting := [0]
  rhsNonContracting := [0]
  lhsBatch := []
  rhsBatch := []
  wf := dot_S4096x512_S10000x512_S4096x10000_1_1_0_0_n_n_wf

class Facts : Prop extends Facts₀ where

variable [Facts]
-- ==== Proof.Spec.lean ====
/-
  The mathematics both programs compute, over the extended reals, with no program in sight.

  A row `v[r, ·]` of 512 entries is scaled by `3 · rsqrt (max (Σ_j v[r,j]²) ε)` (`ε` the float `1e-12`'s
  binary value, `3` exact): `nrm v r k`. The squared length of the scaled row is `sq v r`. The result at
  `(b, c)` is `(sq x b + sq p c) − 2 · Σ_k nrm x b k · nrm p c k`: the squared distance of the scaled rows
  written as |a|² + |b|² − 2 a·b, every operation the extended reals' own.
-/
import Idealize.ShloMosaic.PureOps.Ideal
import Idealize.ShloMosaic.Lib.ValueIdx

noncomputable section

namespace Cert.Spec

open Idealize.ShloMosaic

/-- The three float literals of both programs, as the extended reals their words denote. -/
def eps : EReal := Ideal.ofBits .f32 0x2B8CBCCC#32
def three : EReal := Ideal.ofBits .f32 0x40400000#32
def two : EReal := Ideal.ofBits .f32 0x40000000#32

/-- The literal shapes: the two arguments and the result. -/
abbrev SX : Shape := ⟨2, ![4096, 512]⟩
abbrev SP : Shape := ⟨2, ![10000, 512]⟩
abbrev SO : Shape := ⟨2, ![4096, 10000]⟩

variable {n : ℕ}

/-- The scale of row `r`: `3 · rsqrt (max (Σ_j v[r,j]²) ε)`. -/
def scale (v : Fin n → Fin 512 → EReal) (r : Fin n) : EReal :=
  three * Ideal.rsqrt (max (∑ j : Fin 512, v r j * v r j) eps)

/-- The scaled entry `v[r,k] · scale v r`. -/
def nrm (v : Fin n → Fin 512 → EReal) (r : Fin n) (k : Fin 512) : EReal := v r k * scale v r

/-- The squared length of the scaled row. -/
def sq (v : Fin n → Fin 512 → EReal) (r : Fin n) : EReal := ∑ k : Fin 512, nrm v r k * nrm v r k

/-- The result entry: |a|² + |b|² − 2 a·b of the scaled rows `a = nrm x b ·`, `b = nrm p c ·`. -/
def dist (x : Fin 4096 → Fin 512 → EReal) (p : Fin 10000 → Fin 512 → EReal) (b : Fin 4096) (c : Fin 10000) : EReal :=
  (sq x b + sq p c) - two * ∑ k : Fin 512, nrm x b k * nrm p c k

/-- An array over a literal two-axis shape read by row and column. -/
def rowsX (x : SX.Idx → EReal) : Fin 4096 → Fin 512 → EReal := fun r k => x (ValueIdx.ix2 r k)
def rowsP (p : SP.Idx → EReal) : Fin 10000 → Fin 512 → EReal := fun r k => p (ValueIdx.ix2 r k)

/-- The whole result array as ONE function of the two argument arrays. -/
def G (x : SX.Idx → EReal) (p : SP.Idx → EReal) : SO.Idx → EReal :=
  fun i => dist (rowsX x) (rowsP p) (i 0) (i 1)

end Cert.Spec

end
-- ==== Proof.RefValue.lean ====
/-
  The reference's result is the specification `G`.

  Each operation of the reference, read at an index built from its coordinates, is one step of the
  specification's formula. The row sums of squares give the scale; the scaled entry is
  `three * (v[r,k] * rsqrt …)`, which is `v[r,k] * (three * rsqrt …)` by commutativity and associativity of the
  extended reals' multiplication alone; the squared lengths and the inner product are sums of products of
  scaled entries; the result is their combination `(|a|² + |b|²) − 2 a·b`.
-/
import proofs.«411351_j18451179503909_3_alg».proof.Proof.Gen.ReferenceIdeal.Read
import proofs.«411351_j18451179503909_3_alg».proof.Proof.Spec
import Idealize.ShloMosaic.Lib.ValueIdx
import Idealize.ShloMosaic.PureOps.Ideal.Laws

noncomputable section

namespace Cert.RefValue

open Cert.ReferenceIdeal Cert.ReferenceIdeal.Read Idealize.ShloMosaic Idealize.ShloMosaic.ValueIdx Cert.Spec

/-! ## The composed index functions at an index given by its coordinates

Each is an equation between two functions of the axis; on each axis both sides are the same coordinate. -/

theorem idx_v1_ix (r : Fin 4096) (k : Fin 512) : idx_main_v1 (ix1 r) k = ix2 r k :=
  funext fun a => Fin.ext (by match a with | ⟨0, _⟩ => rfl | ⟨1, _⟩ => rfl)

theorem idx_v2_ix (r : Fin 4096) (z : Fin 1) : idx_main_v2 (ix2 r z) = ix1 r :=
  funext fun a => Fin.ext (by match a with | ⟨0, _⟩ => rfl)

theorem idx_v6_ix (r : Fin 4096) (k : Fin 512) : idx_main_v6 (ix2 r k) = ix2 r (0 : Fin 1) :=
  funext fun a => Fin.ext (by match a with | ⟨0, _⟩ => rfl | ⟨1, _⟩ => rfl)

theorem idx_v21_ix (r : Fin 4096) (k : Fin 512) : idx_main_v21 (ix1 r) k = ix2 r k :=
  funext fun a => Fin.ext (by match a with | ⟨0, _⟩ => rfl | ⟨1, _⟩ => rfl)

theorem idx_v22_ix (r : Fin 4096) (z : Fin 1) : idx_main_v22 (ix2 r z) = ix1 r :=
  funext fun a => Fin.ext (by match a with | ⟨0, _⟩ => rfl)

theorem idx_v11_ix (r : Fin 10000) (k : Fin 512) : idx_main_v11 (ix1 r) k = ix2 r k :=
  funext fun a => Fin.ext (by match a with | ⟨0, _⟩ => rfl | ⟨1, _⟩ => rfl)

theorem idx_v12_ix (r : Fin 10000) (z : Fin 1) : idx_main_v12 (ix2 r z) = ix1 r :=
  funext fun a => Fin.ext (by match a with | ⟨0, _⟩ => rfl)

theorem idx_v16_ix (r : Fin 10000) (k : Fin 512) : idx_main_v16 (ix2 r k) = ix2 r (0 : Fin 1) :=
  funext fun a => Fin.ext (by match a with | ⟨0, _⟩ => rfl | ⟨1, _⟩ => rfl)

theorem idx_v24_ix (r : Fin 10000) (k : Fin 512) : idx_main_v24 (ix1 r) k = ix2 r k :=
  funext fun a => Fin.ext (by match a with | ⟨0, _⟩ => rfl | ⟨1, _⟩ => rfl)

theorem idx_v26_ix (z : Fin 1) (c : Fin 10000) : idx_main_v26 (ix2 z c) = ix1 c :=
  funext fun a => Fin.ext (by match a with | ⟨0, _⟩ => rfl)

theorem idx_v27_ix (b : Fin 4096) (c : Fin 10000) : idx_main_v27 (ix2 b c) = ix2 b (0 : Fin 1) :=
  funext fun a => Fin.ext (by match a with | ⟨0, _⟩ => rfl | ⟨1, _⟩ => rfl)

theorem idx_v28_ix (b : Fin 4096) (c : Fin 10000) : idx_main_v28 (ix2 b c) = ix2 (0 : Fin 1) c :=
  funext fun a => Fin.ext (by match a with | ⟨0, _⟩ => rfl | ⟨1, _⟩ => rfl)

theorem lidx_v25_ix (b : Fin 4096) (c : Fin 10000) (k : Fin 512) : lidx_main_v25 (ix2 b c) k = ix2 b k :=
  funext fun a => Fin.ext (by match a with | ⟨0, _⟩ => rfl | ⟨1, _⟩ => rfl)

theorem ridx_v25_ix (b : Fin 4096) (c : Fin 10000) (k : Fin 512) : ridx_main_v25 (ix2 b c) k = ix2 c k :=
  funext fun a => Fin.ext (by match a with | ⟨0, _⟩ => rfl | ⟨1, _⟩ => rfl)

/-! ## The first argument's side -/

/-- The sum of squares of row `r` of the first argument: the zero word is `0` and drops from the sum. -/
theorem v1_ix (x0 : (⟨S4096x512, .f32⟩ : BufTy).Contents (Elt Ideal)) (r : Fin 4096) :
    val_main_v1 (F := Ideal) x0 (ix1 r) = ∑ j : Fin 512, rowsX x0 r j * rowsX x0 r j := by
  rw [val_main_v1_apply, val_main_cst_apply, Ideal.ofBits_def, Ideal.ofBits_zero_f32, zero_add]
  refine Finset.sum_congr rfl fun k _ => ?_
  rw [idx_v1_ix, val_main_v0_apply, Ideal.mulf_def]
  rfl

/-- The reciprocal square root of the clamped sum of squares of row `r`. -/
theorem v5_ix (x0 : (⟨S4096x512, .f32⟩ : BufTy).Contents (Elt Ideal)) (r : Fin 4096) (z : Fin 1) :
    val_main_v5 (F := Ideal) x0 (ix2 r z)
      = Ideal.rsqrt (max (∑ j : Fin 512, rowsX x0 r j * rowsX x0 r j) eps) := by
  rw [val_main_v5_apply, val_main_v4_apply, val_main_v2_apply, val_main_v3_apply, val_main_cst_0_apply,
    idx_v2_ix, v1_ix, Ideal.hostUnary_rsqrt_def, Ideal.maximumf_def, Ideal.ofBits_def]
  rfl

/-- The scaled entry of the first argument: the reference multiplies `three` onto `v[r,k] * rsqrt …`; moving
    `three` past `v[r,k]` is commutativity and associativity of the product. -/
theorem v9_ix (x0 : (⟨S4096x512, .f32⟩ : BufTy).Contents (Elt Ideal)) (r : Fin 4096) (k : Fin 512) :
    val_main_v9 (F := Ideal) x0 (ix2 r k) = nrm (rowsX x0) r k := by
  rw [val_main_v9_apply, val_main_v8_apply, val_main_cst_1_apply, val_main_v7_apply, val_main_v6_apply,
    idx_v6_ix, v5_ix, Ideal.mulf_def, Ideal.mulf_def, Ideal.ofBits_def]
  exact mul_left_comm _ _ _

/-- The squared length of the scaled row `r` of the first argument. -/
theorem v21_ix (x0 : (⟨S4096x512, .f32⟩ : BufTy).Contents (Elt Ideal)) (r : Fin 4096) :
    val_main_v21 (F := Ideal) x0 (ix1 r) = sq (rowsX x0) r := by
  rw [val_main_v21_apply, val_main_cst_5_apply, Ideal.ofBits_def, Ideal.ofBits_zero_f32, zero_add]
  refine Finset.sum_congr rfl fun k _ => ?_
  rw [idx_v21_ix, val_main_v20_apply, v9_ix, Ideal.mulf_def]

/-- The same squared length, spread along the second axis of the result. -/
theorem v27_ix (x0 : (⟨S4096x512, .f32⟩ : BufTy).Contents (Elt Ideal)) (b : Fin 4096) (c : Fin 10000) :
    val_main_v27 (F := Ideal) x0 (ix2 b c) = sq (rowsX x0) b := by
  rw [val_main_v27_apply, idx_v27_ix, val_main_v22_apply, idx_v22_ix, v21_ix]

/-! ## The second argument's side: the same steps over 10000 rows -/

/-- The sum of squares of row `r` of the second argument. -/
theorem v11_ix (x1 : (⟨S10000x512, .f32⟩ : BufTy).Contents (Elt Ideal)) (r : Fin 10000) :
    val_main_v11 (F := Ideal) x1 (ix1 r) = ∑ j : Fin 512, rowsP x1 r j * rowsP x1 r j := by
  rw [val_main_v11_apply, val_main_cst_2_apply, Ideal.ofBits_def, Ideal.ofBits_zero_f32, zero_add]
  refine Finset.sum_congr rfl fun k _ => ?_
  rw [idx_v11_ix, val_main_v10_apply, Ideal.mulf_def]
  rfl

/-- The reciprocal square root of the clamped sum of squares of row `r`. -/
theorem v15_ix (x1 : (⟨S10000x512, .f32⟩ : BufTy).Contents (Elt Ideal)) (r : Fin 10000) (z : Fin 1) :
    val_main_v15 (F := Ideal) x1 (ix2 r z)
      = Ideal.rsqrt (max (∑ j : Fin 512, rowsP x1 r j * rowsP x1 r j) eps) := by
  rw [val_main_v15_apply, val_main_v14_apply, val_main_v12_apply, val_main_v13_apply, val_main_cst_3_apply,
    idx_v12_ix, v11_ix, Ideal.hostUnary_rsqrt_def, Ideal.maximumf_def, Ideal.ofBits_def]
  rfl

/-- The scaled entry of the second argument. -/
theorem v19_ix (x1 : (⟨S10000x512, .f32⟩ : BufTy).Contents (Elt Ideal)) (r : Fin 10000) (k : Fin 512) :
    val_main_v19 (F := Ideal) x1 (ix2 r k) = nrm (rowsP x1) r k := by
  rw [val_main_v19_apply, val_main_v18_apply, val_main_cst_4_apply, val_main_v17_apply, val_main_v16_apply,
    idx_v16_ix, v15_ix, Ideal.mulf_def, Ideal.mulf_def, Ideal.ofBits_def]
  exact mul_left_comm _ _ _

/-- The squared length of the scaled row `r` of the second argument. -/
theorem v24_ix (x1 : (⟨S10000x512, .f32⟩ : BufTy).Contents (Elt Ideal)) (r : Fin 10000) :
    val_main_v24 (F := Ideal) x1 (ix1 r) = sq (rowsP x1) r := by
  rw [val_main_v24_apply, val_main_cst_6_apply, Ideal.ofBits_def, Ideal.ofBits_zero_f32, zero_add]
  refine Finset.sum_congr rfl fun k _ => ?_
  rw [idx_v24_ix, val_main_v23_apply, v19_ix, Ideal.mulf_def]

/-- The same squared length, laid along the second axis and spread along the first axis of the result. -/
theorem v28_ix (x1 : (⟨S10000x512, .f32⟩ : BufTy).Contents (Elt Ideal)) (b : Fin 4096) (c : Fin 10000) :
    val_main_v28 (F := Ideal) x1 (ix2 b c) = sq (rowsP x1) c := by
  rw [val_main_v28_apply, idx_v28_ix, val_main_v26_apply, idx_v26_ix, v24_ix]

/-! ## The inner product of the scaled rows -/

theorem v25_ix (x0 : (⟨S4096x512, .f32⟩ : BufTy).Contents (Elt Ideal))
    (x1 : (⟨S10000x512, .f32⟩ : BufTy).Contents (Elt Ideal)) (b : Fin 4096) (c : Fin 10000) :
    val_main_v25 (F := Ideal) x0 x1 (ix2 b c) = ∑ k : Fin 512, nrm (rowsX x0) b k * nrm (rowsP x1) c k := by
  rw [val_main_v25_apply]
  refine Finset.sum_congr rfl fun k _ => ?_
  rw [lidx_v25_ix, ridx_v25_ix, v9_ix, v19_ix]

/-! ## The result -/

/-- The reference's result at `(b, c)`: the two squared lengths added, less `two` times the inner product. -/
theorem v32_ix (x0 : (⟨S4096x512, .f32⟩ : BufTy).Contents (Elt Ideal))
    (x1 : (⟨S10000x512, .f32⟩ : BufTy).Contents (Elt Ideal)) (b : Fin 4096) (c : Fin 10000) :
    val_main_v32 (F := Ideal) x0 x1 (ix2 b c) = dist (rowsX x0) (rowsP x1) b c := by
  rw [val_main_v32_apply, val_main_v29_apply, val_main_v31_apply, val_main_v30_apply, val_main_cst_7_apply,
    v27_ix, v28_ix, v25_ix, Ideal.subf_def, Ideal.addf_def, Ideal.mulf_def, Ideal.ofBits_def]
  rfl

/-- The reference's result array is the specification's. -/
theorem ref_eq_G (x0 : (⟨Cert.ReferenceIdeal.S4096x512, .f32⟩ : BufTy).Contents (Elt Ideal))
    (x1 : (⟨Cert.ReferenceIdeal.S10000x512, .f32⟩ : BufTy).Contents (Elt Ideal)) :
    Cert.ReferenceIdeal.Read.val_main_v32 (F := Ideal) x0 x1 = Cert.Spec.G x0 x1 := by
  funext i
  obtain ⟨b, c, rfl⟩ : ∃ (b : Fin 4096) (c : Fin 10000), i = ix2 b c := ⟨i 0, i 1, eq_ix2 i⟩
  exact v32_ix x0 x1 b c

end Cert.RefValue

end
-- ==== Proof.KI.Body.lean ====
import proofs.«411351_j18451179503909_3_alg».proof.Proof.Gen.KernelIdeal.Launch
import proofs.«411351_j18451179503909_3_alg».proof.Proof.Gen.KernelIdeal.Skeleton
import proofs.«411351_j18451179503909_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two kernel bodies as triples

Every access of either body is a WHOLE staging or scratch buffer: a load reads the buffer's contents, a store leaves
its payload. So each body is one pure step from the contents it finds to the contents it leaves, the payloads
being the skeleton's named terms. Stated at any float instance. -/

/-- The zero offsets of every access, as the constant function. -/
theorem hz2 : (![0, 0] : Fin 2 → Nat) = fun _ => 0 := funext fun a => by fin_cases a <;> rfl

/-- What a whole store over anything leaves, read back: its payload. -/
theorem whole_store {S : Shape} {e : EltTy} {off : Fin S.rank → Nat} (h : off = fun _ => 0)
    (inb : ∀ a, off a + S.size a ≤ S.size a) (v : View sig .tc .vmem S e) (f : v.ty.Contents (Elt F)) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-- A whole load reads the contents. -/
theorem whole_load {S : Shape} {e : EltTy} {off : Fin S.rank → Nat} (h : off = fun _ => 0)
    (inb : ∀ a, off a + S.size a ≤ S.size a) (v : View sig .tc .vmem S e) (f : v.ty.Contents (Elt F)) :
    v.readAt (Elt F) (Rect.unit off S.size inb).toLoadRect f = v.read (Elt F) f := by
  rw [View.readAt_eq_ld, View.ld_unit_zero h]

/-! ### Region 0: one row block scaled, its scaled copy and the squared lengths of its scaled rows stored -/

set_option maxHeartbeats 1000000 in
/-- From the input block `x0` the body leaves `k0_pay2 x0` (the scaled block) and `k0_pay3 x0` (the column of
    squared lengths), the input as it was. -/
theorem sound_kernel0 (c : Dev nD) (E : Set ℕ) (i : grid0.Coords)
    (arg1 : Memref sig .tc .vmem S2048x512 .f32) (harg1 : arg1.IsWhole)
    (arg2 : Memref sig .tc .vmem S2048x512 .bf16) (harg2 : arg2.IsWhole)
    (arg3 : Memref sig .tc .vmem S2048x1 .f32) (harg3 : arg3.IsWhole)
    (x0 : Vec F S2048x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k0_pay2 x0)
            ∗ owns (c : Thread nD τ) arg3 fullShare (k0_pay3 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [whole_store hz2, whole_load hz2]
  · iexists _; isplitr
    swap; · iexact H2
    ipureintro
    rw [whole_store hz2, whole_load hz2]

/-! ### Region 1: the branch is on the second grid coordinate alone -/

/-- The body's one condition, from the grid coordinates: the inner coordinate is zero. -/
abbrev cond1 (i : grid1.Coords) : Prop :=
  (Scalar.cmpi .ne (Scalar.extui (Scalar.cmpi .eq (BitVec.ofNat 32 (i 1).val) 0#32)) 0#32) = 1#1

/-- It holds at the first of every eight points (the inner axis has eight). -/
theorem hcond1 : ∀ t : Fin cfg1.N, cond1 (grid1.coords t) ↔ t.val % 8 = 0 :=
  (by decide +kernel : ∀ t : Fin grid1.N, cond1 (grid1.coords t) ↔ t.val % 8 = 0)

set_option maxHeartbeats 2000000 in
/-- AT THE FIRST POINT OF A COLUMN TILE the body scales the proxy block `x2` into the two scratch buffers
    (`k1_pay2 x2`, `k1_pay3 x2`) and computes the result block from them. -/
theorem sound_kernel1_A (c : Dev nD) (E : Set ℕ) (i : grid1.Coords) (hc : cond1 i)
    (arg2 : Memref sig .tc .vmem S512x512 .bf16) (harg2 : arg2.IsWhole)
    (arg3 : Memref sig .tc .vmem S512x1 .f32) (harg3 : arg3.IsWhole)
    (arg4 : Memref sig .tc .vmem S2560x512 .f32) (harg4 : arg4.IsWhole)
    (arg5 : Memref sig .tc .vmem S512x2560 .f32) (harg5 : arg5.IsWhole)
    (arg6 : Memref sig .tc .vmem S2560x512 .bf16) (harg6 : arg6.IsWhole)
    (arg7 : Memref sig .tc .vmem S1x2560 .f32) (harg7 : arg7.IsWhole)
    (x0 : Vec F S512x512 .bf16) (x1 : Vec F S512x1 .f32) (x2 : Vec F S2560x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 x0 (k1_pay2 x2) x1 (k1_pay3 x2))
            ∗ owns (c : Thread nD τ) arg6 fullShare (k1_pay2 x2) ∗ owns (c : Thread nD τ) arg7 fullShare (k1_pay3 x2)) -∗ K ⟨⟩))
      ⊢ wp frame (wpE (defs₀ (F := F)) Variants.none c none) E
          (cc1__dist_kernel i arg2 harg2 arg3 harg3 arg4 harg4 arg5 harg5 arg6 harg6 arg7 harg7) K := by
  simp only [cc1__dist_kernel_eq_skeleton]; unfold cc1__dist_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [whole_store hz2]
    simp only [whole_load (S := S512x512) hz2, whole_load (S := S512x1) hz2, whole_load (S := S2560x512) hz2,
      View.readCov_unit_zero (S := S2560x512) _ hz2, View.readCov_unit_zero (S := S1x2560) _ hz2]
  isplitl [H4]
  · iexists _; isplitr
    swap; · iexact H4
    ipureintro
    sl_unfold_words
    rw [whole_store hz2, whole_load hz2]
  · iexists _; isplitr
    swap; · iexact H5
    ipureintro
    sl_unfold_words
    rw [whole_store hz2, whole_load hz2]

set_option maxHeartbeats 2000000 in
/-- AT EVERY OTHER POINT the scratch buffers are read as found (`s0`, `s1`) and kept; the result block is computed
    from them. -/
theorem sound_kernel1_B (c : Dev nD) (E : Set ℕ) (i : grid1.Coords) (hc : ¬ cond1 i)
    (arg2 : Memref sig .tc .vmem S512x512 .bf16) (harg2 : arg2.IsWhole)
    (arg3 : Memref sig .tc .vmem S512x1 .f32) (harg3 : arg3.IsWhole)
    (arg4 : Memref sig .tc .vmem S2560x512 .f32) (harg4 : arg4.IsWhole)
    (arg5 : Memref sig .tc .vmem S512x2560 .f32) (harg5 : arg5.IsWhole)
    (arg6 : Memref sig .tc .vmem S2560x512 .bf16) (harg6 : arg6.IsWhole)
    (arg7 : Memref sig .tc .vmem S1x2560 .f32) (harg7 : arg7.IsWhole)
    (x0 : Vec F S512x512 .bf16) (x1 : Vec F S512x1 .f32) (x2 : Vec F S2560x512 .f32)
    (s0 : Vec F S2560x512 .bf16) (s1 : Vec F S1x2560 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s0 ∗ owns (c : Thread nD τ) arg7 fullShare s1
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 x0 s0 x1 s1)
            ∗ owns (c : Thread nD τ) arg6 fullShare s0 ∗ owns (c : Thread nD τ) arg7 fullShare s1) -∗ K ⟨⟩))
      ⊢ wp frame (wpE (defs₀ (F := F)) Variants.none c none) E
          (cc1__dist_kernel i arg2 harg2 arg3 harg3 arg4 harg4 arg5 harg5 arg6 harg6 arg7 harg7) K := by
  simp only [cc1__dist_kernel_eq_skeleton]; unfold cc1__dist_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [whole_store hz2]
    simp only [whole_load (S := S512x512) hz2, whole_load (S := S512x1) hz2, whole_load (S := S2560x512) hz2,
      whole_load (S := S1x2560) hz2]
  isplitl [H4]
  · iexists f4; isplitr; · ipureintro; rfl
    iexact H4
  · iexists f5; isplitr; · ipureintro; rfl
    iexact H5

end Cert.KernelIdeal.Hand

end
-- ==== Proof.KI.Data0.lean ====
import proofs.«411351_j18451179503909_3_alg».proof.Proof.Gen.KernelIdeal.Launch
import proofs.«411351_j18451179503909_3_alg».proof.Proof.Gen.KernelIdeal.Skeleton
import proofs.«411351_j18451179503909_3_alg».proof.Proof.Gen.KernelIdeal.Points
import proofs.«411351_j18451179503909_3_alg».proof.Proof.KI.Body
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 0 (the row scaling of the first argument): the proof data and the body obligation

At a PARAMETER `V`, the core's buffer contents when the region is entered. The grid has two points, each a block
of 2048 rows; the windows tile their arrays. After the body at point `t` the input's staging buffer holds its
block, the first output's the scaled block, the second's the column of squared lengths: the body's payloads of the
input block. Stated at any float instance. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body the input's
    buffer at its block, the outputs' at the body's two payloads of it; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (iblk0 V c 0 t)
    | ⟨2, _⟩ => k0_pay3 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay2 (iblk0 V c 0 t) := by dsimp only [dat0]
theorem after0_2 (c : Dev nD) (t : Fin cfg0.N) : (dat0 V c).after 2 t = k0_pay3 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Data1.lean ====
import proofs.«411351_j18451179503909_3_alg».proof.Proof.Gen.KernelIdeal.Launch
import proofs.«411351_j18451179503909_3_alg».proof.Proof.Gen.KernelIdeal.Skeleton
import proofs.«411351_j18451179503909_3_alg».proof.Proof.Gen.KernelIdeal.Points
import proofs.«411351_j18451179503909_3_alg».proof.Proof.KI.Body
import proofs.«411351_j18451179503909_3_alg».proof.Proof.Spec
import Idealize.ShloMosaic.Lib.ValueIdx
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open ValueIdx

/-! ## Region 1 (the distances) at the extended reals: the proof data

At a PARAMETER `V`, the core's buffer contents when the region is entered. The grid is 4 column tiles (outer) by 8
row tiles (inner), point `t` at column tile `t / 8` and row tile `t % 8`. The proxy window (2560 rows a block) and
the result window (2560 columns a block) overhang their arrays at the last column tile: 10000 = 3·2560 + 2320. -/

variable (V : (c : Dev nD) → (b : Ref sig .tc) → Buf (Elt Ideal) ((c : Thread nD τ).loc b))

/-- Window `w`'s block at point `t`, read off its array as the region finds it: its part inside the array. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The scaled proxy entry and the squared length of the scaled proxy row, as total functions of a row NUMBER
    (zero past the array's end, where nothing reads them). -/
def PN (c : Dev nD) (r : ℕ) (k : Fin 512) : EReal :=
  if h : r < 10000 then Cert.Spec.nrm (Cert.Spec.rowsP (V c main_arg1)) ⟨r, h⟩ k else 0
def PSQ (c : Dev nD) (r : ℕ) : EReal :=
  if h : r < 10000 then Cert.Spec.sq (Cert.Spec.rowsP (V c main_arg1)) ⟨r, h⟩ else 0

/-- The two arrays region 0 left, read by row and column as extended reals. -/
def XNv (c : Dev nD) : Fin 4096 → Fin 512 → EReal := fun b k => V c main_v0_0 (ix2 b k)
def XSQv (c : Dev nD) : Fin 4096 → EReal := fun b => V c main_v0_1 (ix2 b 0)

/-- The contents the result array is to end with, from the region's entry contents: at `(b, c)` the squared length
    stored for row `b` plus that of proxy row `c`, less twice the inner product of the stored scaled row `b` with the
    scaled proxy row `c`. -/
def OUT (c : Dev nD) : Buf (Elt Ideal) ((c : Thread nD τ).loc main_v1) := fun i =>
  (XSQv V c (i 0) + PSQ V c (i 1).val) - Cert.Spec.two * ∑ k : Fin 512, XNv V c (i 0) k * PN V c (i 1).val k

/-- What is known of the two scratch buffers BEFORE point number `j`: nothing at the first point of a column tile;
    otherwise every scratch row that holds a real proxy row of column tile `j / 8` holds its scaled entries and its
    squared length. -/
def SOK (c : Dev nD) (j : ℕ) (s0 : Vec Ideal S2560x512 .bf16) (s1 : Vec Ideal S1x2560 .f32) : Prop :=
  j % 8 ≠ 0 → ∀ r : Fin 2560, (j / 8) * 2560 + r.val < 10000 →
    (∀ k : Fin 512, s0 (ix2 r k) = PN V c ((j / 8) * 2560 + r.val) k) ∧ s1 (ix2 0 r) = PSQ V c ((j / 8) * 2560 + r.val)

/-- The scoped buffers of the core that are neither a staging buffer of this pipeline nor its scratch: the other
    pipeline's six staging buffers, each whole at some contents. -/
def rest6 (c : Dev nD) : sProp 𝕄 :=
  iprop((∃ f : Buf (Elt Ideal) ((c : Thread nD τ).loc cc0_stg0_0), ((c : Thread nD τ).loc cc0_stg0_0) ↦{fullShare} f)
    ∗ (∃ f : Buf (Elt Ideal) ((c : Thread nD τ).loc cc0_stg0_1), ((c : Thread nD τ).loc cc0_stg0_1) ↦{fullShare} f)
    ∗ (∃ f : Buf (Elt Ideal) ((c : Thread nD τ).loc cc0_stg1_0), ((c : Thread nD τ).loc cc0_stg1_0) ↦{fullShare} f)
    ∗ (∃ f : Buf (Elt Ideal) ((c : Thread nD τ).loc cc0_stg1_1), ((c : Thread nD τ).loc cc0_stg1_1) ↦{fullShare} f)
    ∗ (∃ f : Buf (Elt Ideal) ((c : Thread nD τ).loc cc0_stg2_0), ((c : Thread nD τ).loc cc0_stg2_0) ↦{fullShare} f)
    ∗ (∃ f : Buf (Elt Ideal) ((c : Thread nD τ).loc cc0_stg2_1), ((c : Thread nD τ).loc cc0_stg2_1) ↦{fullShare} f))

/-- The body's invariant before point number `j`: those six, the generator register at some state, and the two
    scratch buffers at contents of which `SOK` holds. -/
def Φ1 (c : Dev nD) (j : Fin (cfg1.N + 1)) : sProp 𝕄 :=
  iprop(rest6 c ∗ (∃ r, prngReg c r)
    ∗ ∃ s0 s1, ⌜SOK V c j.val s0 s1⌝ ∗ owns (c : Thread nD τ) (Memref.whole cc1_scratch0) fullShare s0
        ∗ owns (c : Thread nD τ) (Memref.whole cc1_scratch1) fullShare s1)

/-- The proof data of pipeline 1 on core `c`: the arrays as the region finds them; after the body the two row
    windows' buffers at their blocks, the proxy window's at its block on the rows inside the array, the result
    window's at the block of `OUT` on the columns inside the array (past the array's end the obligation states
    nothing, and the filler is zero); nothing owed; full shares. -/
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => win1_2.fill (grid1.coords t) (fun _ => (0 : EReal)) (iblk1 V c 2 t)
    | ⟨3, _⟩ => win1_3.fill (grid1.coords t) (fun _ => (0 : EReal)) (((cfg1.win 3).blk t).view.read (Elt Ideal) (OUT V c))
  Φ j := Φ1 V c j
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = win1_2.fill (grid1.coords t) (fun _ => (0 : EReal)) (iblk1 V c 2 t) := by dsimp only [dat1]
theorem after1_3 (c : Dev nD) (t : Fin cfg1.N) :
    (dat1 V c).after 3 t = win1_3.fill (grid1.coords t) (fun _ => (0 : EReal)) (((cfg1.win 3).blk t).view.read (Elt Ideal) (OUT V c)) := by
  dsimp only [dat1]
theorem Φ_eq1 (c : Dev nD) (j : Fin (cfg1.N + 1)) : (dat1 V c).Φ j = Φ1 V c j := by dsimp only [dat1]

/-- What the result window writes back at point `t` is the block of `OUT` there. -/
theorem flushed1_3 (c : Dev nD) (t : Fin cfg1.N) :
    (dat1 V c).flushed 3 t = ((cfg1.win 3).blk t).view.read (Elt Ideal) (OUT V c) := by
  show win1_3.cut (grid1.coords t) ((dat1 V c).after 3 t) = _
  rw [after1_3]; exact win1_3.cut_fill _ _ _

end Cert.KernelIdeal.Hand

end
-- ==== Proof.KI.Vals.lean ====
import proofs.«411351_j18451179503909_3_alg».proof.Proof.Gen.KernelIdeal.Launch
import proofs.«411351_j18451179503909_3_alg».proof.Proof.Gen.KernelIdeal.Skeleton
import proofs.«411351_j18451179503909_3_alg».proof.Proof.Gen.KernelIdeal.Points
import proofs.«411351_j18451179503909_3_alg».proof.Proof.KI.Data0
import proofs.«411351_j18451179503909_3_alg».proof.Proof.KI.Data1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open ValueIdx

/-! ## The core's buffer contents at the two region boundaries, from the launch memory

Region 0 rewrites its two result arrays; region 1 rewrites the program's result array; every other buffer keeps what it
held. Each region's proof data is stated at the contents its region is entered from. -/

variable (m : (ℓ : Loc nD τ sig) → Buf (Elt Ideal) ℓ)

/-- Core `c`'s buffers at launch. -/
abbrev W0 : Dev nD → Valuation τ sig (Elt Ideal) := fun c b => m (c, b)
/-- The same read at the TensorCore's references (what region 0's proof data take). -/
abbrev V0 : (c : Dev nD) → (b : Ref sig .tc) → Buf (Elt Ideal) ((c : Thread nD τ).loc b) := fun c b => W0 m c b
/-- At region 0's exit: its arrays at what the pipeline leaves, every other buffer as entered. -/
def W1 (c : Dev nD) : Valuation τ sig (Elt Ideal) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (what region 1's proof data take). -/
abbrev V1 : (c : Dev nD) → (b : Ref sig .tc) → Buf (Elt Ideal) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At region 1's exit: its arrays at what the pipeline leaves, every other buffer as entered. -/
def W2 (c : Dev nD) : Valuation τ sig (Elt Ideal) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt Ideal) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

end Cert.KernelIdeal.Hand

end
-- ==== Proof.PayIdx.lean ====
/-
  The kernel's pure payload terms read at one index, over the extended reals.

  Region 0 scales a `[2048, 512]` block row by row: entry `(r, k)` of the scaled block is `nrm v r k`
  (`v[r,k] · 3 · rsqrt (max (Σ_j v[r,j]²) ε)`), its narrowing to the short format is the same extended real, and the
  keepdims column of squared row lengths is `sq v r`. Region 1 does the same on a `[2560, 512]` block, hands the
  squared lengths on as a row (the column transposed), and forms the distance block
  `(column of |a|² + row of |b|²) − 2 · a·b`, whose product contracts the 512 lanes of both operands.

  Each statement is over a variable block and explicit coordinates. The layout operations (the cast of a vector to
  a column, the broadcast of a column along the lanes, the transpose of a column to a row, the broadcast of a row
  down the rows) are read at coordinates one lemma each; the lane sum from the zero word is the plain finite sum;
  the product into the zero splat is the plain sum over the contracted coordinate.
-/
import proofs.«411351_j18451179503909_3_alg».proof.Proof.Gen.KernelIdeal.Skeleton
import proofs.«411351_j18451179503909_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Spec Idealize.ShloMosaic ValueIdx

/-! ## Layout operations of a keepdims column, read at coordinates -/

section Layout
variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sum of a row -/

/-- The `add` reduction over axis 1 of an `[n, m]` block from the zero word, read at row `r`: the plain sum of the row. -/
theorem rowsum_apply {n m : ℕ} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) := by
  refine (Ideal.multiReduction_add_single src 0x00000000#32 h hφ hacc (ix1 r)).trans ?_
  refine Finset.sum_congr rfl fun k _ => congrArg src ?_
  funext a
  refine Fin.ext ?_
  match a with
  | ⟨0, _⟩ => rfl
  | ⟨1, _⟩ => rfl

/-! ## The specification's functions depend on one row only -/

theorem scale_congr {n n' : ℕ} (v : Fin n → Fin 512 → EReal) (v' : Fin n' → Fin 512 → EReal) (r : Fin n) (r' : Fin n')
    (h : ∀ j, v r j = v' r' j) : scale v r = scale v' r' := by
  unfold scale
  rw [Finset.sum_congr rfl fun j _ => show v r j * v r j = v' r' j * v' r' j by rw [h j]]

theorem nrm_congr {n n' : ℕ} (v : Fin n → Fin 512 → EReal) (v' : Fin n' → Fin 512 → EReal) (r : Fin n) (r' : Fin n')
    (h : ∀ j, v r j = v' r' j) (k : Fin 512) : nrm v r k = nrm v' r' k := by
  unfold nrm
  rw [h k, scale_congr v v' r r' h]

theorem sq_congr {n n' : ℕ} (v : Fin n → Fin 512 → EReal) (v' : Fin n' → Fin 512 → EReal) (r : Fin n) (r' : Fin n')
    (h : ∀ j, v r j = v' r' j) : sq v r = sq v' r' := by
  unfold Spec.sq
  exact Finset.sum_congr rfl fun k _ => by rw [nrm_congr v v' r r' h k]

/-! ## The scaled block and its squared row lengths, over a block of any number of rows -/

section Chain
variable {n : ℕ}

/-- The keepdims column `3 · rsqrt (max (Σ_j v[r,j]²) ε)`, read at row `r`: the specification's `scale`. -/
theorem scaleCol_apply (v : FVec Ideal ⟨2, ![n, 512]⟩ .f32)
    (hr : (⟨2, ![n, 512]⟩ : Shape).Reduces [1] ⟨1, ![n]⟩) (hφ : FKind.Formats .f32)
    (hacc : (0x00000000#32 : BitVec 32) = FKind.add.neutral .f32 hφ)
    (hs : (⟨1, ![n]⟩ : Shape).ShapeCasts ⟨2, ![n, 1]⟩) (r : Fin n) (u : Fin 1) :
    mulf (broadcast ⟨2, ![n, 1]⟩ (Scalar.ofBits (F := Ideal) .f32 0x40400000#32))
        (rsqrt (maximumf (shapeCast ⟨2, ![n, 1]⟩ (multiReduction .add [1] ⟨1, ![n]⟩ (mulf v v) 0x00000000#32 hr hφ hacc) hs)
          (broadcast ⟨2, ![n, 1]⟩ (Scalar.ofBits (F := Ideal) .f32 0x2B8CBCCC#32)))) (ix2 r u)
      = scale (fun r k => v (ix2 r k)) r := by
  rw [mulf_apply, broadcast_apply]
  show three * Ideal.rsqrt (max (shapeCast ⟨2, ![n, 1]⟩ (multiReduction .add [1] ⟨1, ![n]⟩ (mulf v v) 0x00000000#32 hr hφ hacc) hs (ix2 r u)) eps) = _
  rw [shapeCast_a_a1_apply, rowsum_apply]
  rfl

/-- The scaled block `v · broadcast (scale column)`, read at `(r, k)`: the specification's `nrm`. -/
theorem nrmBlock_apply (v : FVec Ideal ⟨2, ![n, 512]⟩ .f32)
    (hr : (⟨2, ![n, 512]⟩ : Shape).Reduces [1] ⟨1, ![n]⟩) (hφ : FKind.Formats .f32)
    (hacc : (0x00000000#32 : BitVec 32) = FKind.add.neutral .f32 hφ)
    (hs : (⟨1, ![n]⟩ : Shape).ShapeCasts ⟨2, ![n, 1]⟩) (hb : (⟨2, ![n, 1]⟩ : Shape).Broadcasts ⟨2, ![n, 512]⟩)
    (r : Fin n) (k : Fin 512) :
    mulf v (broadcastTo ⟨2, ![n, 512]⟩ (mulf (broadcast ⟨2, ![n, 1]⟩ (Scalar.ofBits (F := Ideal) .f32 0x40400000#32))
        (rsqrt (maximumf (shapeCast ⟨2, ![n, 1]⟩ (multiReduction .add [1] ⟨1, ![n]⟩ (mulf v v) 0x00000000#32 hr hφ hacc) hs)
          (broadcast ⟨2, ![n, 1]⟩ (Scalar.ofBits (F := Ideal) .f32 0x2B8CBCCC#32))))) hb) (ix2 r k)
      = nrm (fun r k => v (ix2 r k)) r k := by
  rw [mulf_apply, broadcastTo_a1_ab_apply, scaleCol_apply]
  rfl

/-- The keepdims column of the squared row lengths of a block `w` that reads `nrm x` entry by entry: `sq x`. -/
theorem sqCol_apply (x : Fin n → Fin 512 → EReal) (w : FVec Ideal ⟨2, ![n, 512]⟩ .f32) (hw : ∀ r k, w (ix2 r k) = nrm x r k)
    (hr : (⟨2, ![n, 512]⟩ : Shape).Reduces [1] ⟨1, ![n]⟩) (hφ : FKind.Formats .f32)
    (hacc : (0x00000000#32 : BitVec 32) = FKind.add.neutral .f32 hφ)
    (hs : (⟨1, ![n]⟩ : Shape).ShapeCasts ⟨2, ![n, 1]⟩) (r : Fin n) (u : Fin 1) :
    shapeCast ⟨2, ![n, 1]⟩ (multiReduction .add [1] ⟨1, ![n]⟩ (mulf w w) 0x00000000#32 hr hφ hacc) hs (ix2 r u) = sq x r := by
  rw [shapeCast_a_a1_apply, rowsum_apply]
  unfold Spec.sq
  exact Finset.sum_congr rfl fun k _ => by rw [mulf_apply, hw r k]

end Chain

/-! ## Region 0: the payloads of the normalising kernel on a `[2048, 512]` block -/

theorem k0_pay1_apply (v : Vec Ideal S2048x512 .f32) (r : Fin 2048) (k : Fin 512) :
    k0_pay1 (F := Ideal) v (ix2 r k) = nrm (fun r k => v (ix2 r k)) r k := by
  unfold k0_pay1
  exact nrmBlock_apply v _ _ _ _ _ r k

theorem k0_pay2_apply (v : Vec Ideal S2048x512 .f32) (r : Fin 2048) (k : Fin 512) :
    k0_pay2 (F := Ideal) v (ix2 r k) = nrm (fun r k => v (ix2 r k)) r k := by
  unfold k0_pay2
  exact (truncf_apply (ψ := .bf16) (k0_pay1 (F := Ideal) v) bitsLt_bf16_f32 (ix2 r k)).trans (k0_pay1_apply v r k)

theorem k0_pay3_apply (v : Vec Ideal S2048x512 .f32) (r : Fin 2048) :
    k0_pay3 (F := Ideal) v (ix2 r 0) = sq (fun r k => v (ix2 r k)) r := by
  unfold k0_pay3
  exact sqCol_apply _ (k0_pay1 (F := Ideal) v) (k0_pay1_apply v) _ _ _ _ r 0

/-! ## Region 1: the normalising payloads on a `[2560, 512]` block -/

theorem k1_pay1_apply (v : Vec Ideal S2560x512 .f32) (r : Fin 2560) (k : Fin 512) :
    k1_pay1 (F := Ideal) v (ix2 r k) = nrm (fun r k => v (ix2 r k)) r k := by
  unfold k1_pay1
  exact nrmBlock_apply v _ _ _ _ _ r k

theorem k1_pay2_apply (v : Vec Ideal S2560x512 .f32) (r : Fin 2560) (k : Fin 512) :
    k1_pay2 (F := Ideal) v (ix2 r k) = nrm (fun r k => v (ix2 r k)) r k := by
  unfold k1_pay2
  refine (congrFun (shapeCast_self _ shapeCasts_S2560x512_S2560x512) (ix2 r k)).trans ?_
  exact (truncf_apply (ψ := .bf16) (k1_pay1 (F := Ideal) v) bitsLt_bf16_f32 (ix2 r k)).trans (k1_pay1_apply v r k)

/-- The squared row lengths leave region 1 as a row: the keepdims column transposed. -/
theorem k1_pay3_apply (v : Vec Ideal S2560x512 .f32) (r : Fin 2560) :
    k1_pay3 (F := Ideal) v (ix2 0 r) = sq (fun r k => v (ix2 r k)) r := by
  unfold k1_pay3
  refine (congrFun (shapeCast_self _ shapeCasts_S1x2560_S1x2560) (ix2 0 r)).trans ?_
  refine (transpose_ix2_apply _ transposes_S2560x1_p1_0_S1x2560 (0 : Fin 1) r).trans ?_
  exact sqCol_apply _ (k1_pay1 (F := Ideal) v) (k1_pay1_apply v) _ _ _ _ r 0

/-! ## Region 1: the product of the scaled blocks, contracted over the 512 lanes of both -/

theorem lhs_dist_0 (i : S512x2560.Idx) (q : dot_S512x512_S2560x512_S512x2560_1_1_0_0_n_n.contr.Idx) :
    (dot_S512x512_S2560x512_S512x2560_1_1_0_0_n_n.lhsIdx i q 0).val = (i 0).val := by
  unfold DotDims.lhsIdx
  rw [dif_neg (show ¬(0 : Fin S512x512.rank) ∈ dot_S512x512_S2560x512_S512x2560_1_1_0_0_n_n.lhsBatch by decide), dif_pos (show (0 : Fin S512x512.rank) ∈ dot_S512x512_S2560x512_S512x2560_1_1_0_0_n_n.lhsNonContracting by decide)]
  rfl
theorem lhs_dist_1 (i : S512x2560.Idx) (q : dot_S512x512_S2560x512_S512x2560_1_1_0_0_n_n.contr.Idx) :
    (dot_S512x512_S2560x512_S512x2560_1_1_0_0_n_n.lhsIdx i q 1).val = (q ⟨0, by decide⟩).val :=
  dot_S512x512_S2560x512_S512x2560_1_1_0_0_n_n.lhsIdx_val_of_single rfl i q
theorem rhs_dist_0 (i : S512x2560.Idx) (q : dot_S512x512_S2560x512_S512x2560_1_1_0_0_n_n.contr.Idx) :
    (dot_S512x512_S2560x512_S512x2560_1_1_0_0_n_n.rhsIdx i q 0).val = (i 1).val := by
  unfold DotDims.rhsIdx
  rw [dif_neg (show ¬(0 : Fin S2560x512.rank) ∈ dot_S512x512_S2560x512_S512x2560_1_1_0_0_n_n.rhsBatch by decide), dif_pos (show (0 : Fin S2560x512.rank) ∈ dot_S512x512_S2560x512_S512x2560_1_1_0_0_n_n.rhsNonContracting by decide)]
  rfl
theorem rhs_dist_1 (i : S512x2560.Idx) (q : dot_S512x512_S2560x512_S512x2560_1_1_0_0_n_n.contr.Idx) :
    (dot_S512x512_S2560x512_S512x2560_1_1_0_0_n_n.rhsIdx i q 1).val = (q ⟨0, by decide⟩).val :=
  dot_S512x512_S2560x512_S512x2560_1_1_0_0_n_n.rhsIdx_val_of_single rfl i q

/-- The block product into the zero splat, read at `(b, c)`: row `b` of the left block against row `c` of the right one. -/
theorem dist_matmul_apply (x : FVec Ideal S512x512 .bf16) (y : FVec Ideal S2560x512 .bf16) (b : Fin 512) (c : Fin 2560) :
    matmul dot_S512x512_S2560x512_S512x2560_1_1_0_0_n_n none x y (constant (F := Ideal) S512x2560 .f32 0x00000000#32) (ix2 b c)
      = ∑ k : Fin 512, x (ix2 b k) * y (ix2 c k) := by
  simp only [matmul]
  rw [Ideal.matmul_constant_zero_apply, ← Equiv.sum_comp (contrEquiv1 dot_S512x512_S2560x512_S512x2560_1_1_0_0_n_n 512 rfl rfl).symm]
  refine Finset.sum_congr rfl fun k _ => ?_
  have hk := contrEquiv1_symm_val dot_S512x512_S2560x512_S512x2560_1_1_0_0_n_n 512 rfl rfl k
  have el : dot_S512x512_S2560x512_S512x2560_1_1_0_0_n_n.lhsIdx (ix2 b c) ((contrEquiv1 dot_S512x512_S2560x512_S512x2560_1_1_0_0_n_n 512 rfl rfl).symm k) = ix2 b k := funext fun a => Fin.ext (by
    match a with
    | ⟨0, _⟩ => exact lhs_dist_0 _ _
    | ⟨1, _⟩ => exact (lhs_dist_1 _ _).trans hk)
  have er : dot_S512x512_S2560x512_S512x2560_1_1_0_0_n_n.rhsIdx (ix2 b c) ((contrEquiv1 dot_S512x512_S2560x512_S512x2560_1_1_0_0_n_n 512 rfl rfl).symm k) = ix2 c k := funext fun a => Fin.ext (by
    match a with
    | ⟨0, _⟩ => exact rhs_dist_0 _ _
    | ⟨1, _⟩ => exact (rhs_dist_1 _ _).trans hk)
  rw [el, er]

/-- The distance block `(|a|² column + |b|² row) − 2 · a·b`, read at `(b, c)`. -/
theorem k1_pay4_apply (v3 : Vec Ideal S512x512 .bf16) (v5 : Vec Ideal S2560x512 .bf16) (v7 : Vec Ideal S512x1 .f32)
    (v9 : Vec Ideal S1x2560 .f32) (b : Fin 512) (c : Fin 2560) :
    k1_pay4 (F := Ideal) v3 v5 v7 v9 (ix2 b c)
      = (v7 (ix2 b 0) + v9 (ix2 0 c)) - two * ∑ k : Fin 512, v3 (ix2 b k) * v5 (ix2 c k) := by
  unfold k1_pay4
  refine (subf_apply _ _ (ix2 b c)).trans ?_
  refine congrArg₂ (· - ·) ?_ ?_
  · refine (addf_apply _ _ (ix2 b c)).trans ?_
    refine congrArg₂ (· + ·) ?_ ?_
    · refine (broadcastTo_a1_ab_apply _ broadcasts_S512x1_S512x2560 b c).trans ?_
      exact congrFun (shapeCast_self v7 shapeCasts_S512x1_S512x1) (ix2 b 0)
    · exact broadcastTo_1b_ab_apply v9 broadcasts_S1x2560_S512x2560 b c
  · refine (mulf_apply _ _ (ix2 b c)).trans ?_
    refine congrArg₂ (· * ·) rfl ?_
    refine (dist_matmul_apply _ v5 b c).trans ?_
    rw [shapeCast_self v3 shapeCasts_S512x512_S512x512]

end Cert.KernelIdeal.Pay

end
-- ==== Proof.KI.Blocks1.lean ====
/-
  Region 1 (the distances) at the extended reals: what the body finds in each window's buffer, and the blocks read
  at coordinates.

  Point `t` of the 4 × 8 grid is at column tile `t / 8` and row tile `t % 8`. The two row windows (the scaled rows and
  their squared lengths, 512 rows a block) are fetched at every point; the proxy window (2560 rows a block) is fetched
  at the first point of a column tile and kept through the other seven; the result window (512 × 2560 a block) is
  written back at every point. The proxy and the result windows overhang their arrays at the last column tile
  (10000 = 3·2560 + 2320): there only the part inside the array is stated.
-/
import proofs.«411351_j18451179503909_3_alg».proof.Proof.Gen.KernelIdeal.Launch
import proofs.«411351_j18451179503909_3_alg».proof.Proof.Gen.KernelIdeal.Skeleton
import proofs.«411351_j18451179503909_3_alg».proof.Proof.Gen.KernelIdeal.Points
import proofs.«411351_j18451179503909_3_alg».proof.Proof.KI.Body
import proofs.«411351_j18451179503909_3_alg».proof.Proof.KI.Data1
import proofs.«411351_j18451179503909_3_alg».proof.Proof.PayIdx
import proofs.«411351_j18451179503909_3_alg».proof.Proof.Spec
import Idealize.ShloMosaic.Lib.ValueIdx
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open ValueIdx

variable (V : (c : Dev nD) → (b : Ref sig .tc) → Buf (Elt Ideal) ((c : Thread nD τ).loc b))

/-! ## Rows of a row tile -/

/-- Row `b` of the row tile of point `t`, as a row of the whole array. -/
def rowOf (t : Fin cfg1.N) (b : Fin 512) : Fin 4096 := ⟨(t.val % 8) * 512 + b.val, by have := b.isLt; omega⟩

/-! ## What the body finds in each window's buffer -/

/-- The two row windows are fetched at every point: their buffers hold their blocks. -/
theorem before1_0 (c : Dev nD) (t : Fin cfg1.N) (d) : (dat1 V c).before 0 t d = iblk1 V c 0 t := by
  unfold Dat.before; rw [if_pos (fetch1_0 t)]; rfl
theorem before1_1 (c : Dev nD) (t : Fin cfg1.N) (d) : (dat1 V c).before 1 t d = iblk1 V c 1 t := by
  unfold Dat.before; rw [if_pos (fetch1_1 t)]; rfl

/-- The proxy window's cut is a function of its block index. -/
theorem clip1_2_of_index (t t' : Fin cfg1.N) (h : (cfg1.win 2).index t = (cfg1.win 2).index t') :
    (cfg1.win 2).clip (cfg1.grid.coords t) = (cfg1.win 2).clip (cfg1.grid.coords t') := by
  funext a
  show Pipeline.Clip.of ((cfg1.win 2).index t a) _ _ = Pipeline.Clip.of ((cfg1.win 2).index t' a) _ _
  rw [h]

/-- The proxy window's buffer holds, fetched at this point or kept from the column tile's first point, its block on
    the rows inside the array. -/
theorem before1_2 (c : Dev nD) (t : Fin cfg1.N) (d) :
    (dat1 V c).before 2 t d = win1_2.fill (grid1.coords t) d (iblk1 V c 2 t) := by
  refine ((dat1 V c).before_in_eq_fetched 2 rfl (fun _ => rfl) clip1_2_of_index (fun t => ?_) t d).trans rfl
  rw [after1_2]
  exact win1_2.cut_fill _ _ _

/-- The result window is written back at every point and never fetched: its buffer holds what nothing names. -/
theorem before1_3 (c : Dev nD) (t : Fin cfg1.N) (d) : (dat1 V c).before 3 t d = d := by
  unfold Dat.before
  rw [if_neg (show ¬((cfg1.win 3).fetch t = true) from fun h => Bool.false_ne_true h)]
  by_cases ht : t.val = 0
  · rw [if_pos ht]
  · rw [if_neg ht]; exact if_pos (flush1_3 _)

/-! ## The index maps and the cuts, decided once over the grid -/

/-- Point `t` is at row tile `t % 8` and column tile `t / 8`. -/
theorem idx1 : ∀ t : Fin cfg1.N, win1_0.index t (0 : Fin 2) = t.val % 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val % 8 ∧ win1_3.index t (1 : Fin 2) = t.val / 8 :=
  (by decide +kernel : ∀ t : Fin grid1.N, _)

/-- The part of a block inside its array: all of it but on the last column tile, which keeps `10000 − 3·2560`. -/
theorem xsize1 : ∀ t : Fin cfg1.N, win1_2.xsize (grid1.coords t) (0 : Fin 2) = min 2560 (10000 - (t.val / 8) * 2560)
    ∧ win1_2.xsize (grid1.coords t) (1 : Fin 2) = 512
    ∧ win1_3.xsize (grid1.coords t) (0 : Fin 2) = 512
    ∧ win1_3.xsize (grid1.coords t) (1 : Fin 2) = min 2560 (10000 - (t.val / 8) * 2560) :=
  (by decide +kernel : ∀ t : Fin grid1.N, _)

/-! ## The blocks read at coordinates -/

theorem iblk1_0_apply (c : Dev nD) (t : Fin cfg1.N) (b : Fin 512) (k : Fin 512) :
    iblk1 V c 0 t (ix2 b k) = XNv V c (rowOf t b) k := by
  obtain ⟨e0, e1, -⟩ := idx1 t
  show V c main_v0_0 (((cfg1.win 0).blk t).view.emb (ix2 b k)) = V c main_v0_0 (ix2 (rowOf t b) k)
  refine congrArg (V c main_v0_0) (funext fun a => Fin.ext ?_)
  match a with
  | ⟨0, _⟩ => show win1_0.index t (0 : Fin 2) * 512 + 1 * b.val = (t.val % 8) * 512 + b.val; rw [e0]; omega
  | ⟨1, _⟩ => show win1_0.index t (1 : Fin 2) * 512 + 1 * k.val = k.val; rw [e1]; omega

theorem iblk1_1_apply (c : Dev nD) (t : Fin cfg1.N) (b : Fin 512) :
    iblk1 V c 1 t (ix2 b 0) = XSQv V c (rowOf t b) := by
  obtain ⟨-, -, e2, e3, -⟩ := idx1 t
  show V c main_v0_1 (((cfg1.win 1).blk t).view.emb (ix2 b 0)) = V c main_v0_1 (ix2 (rowOf t b) 0)
  refine congrArg (V c main_v0_1) (funext fun a => Fin.ext ?_)
  match a with
  | ⟨0, _⟩ => show win1_1.index t (0 : Fin 2) * 512 + 1 * b.val = (t.val % 8) * 512 + b.val; rw [e2]; omega
  | ⟨1, _⟩ => show win1_1.index t (1 : Fin 2) * 1 + 1 * 0 = 0; rw [e3]

/-- A row of the proxy window's buffer that holds a real proxy row holds that row. -/
theorem fill1_2_apply (c : Dev nD) (t : Fin cfg1.N) (d) (r : Fin 2560) (k : Fin 512) (h : (t.val / 8) * 2560 + r.val < 10000) :
    win1_2.fill (grid1.coords t) d (iblk1 V c 2 t) (ix2 r k) = Cert.Spec.rowsP (V c main_arg1) ⟨(t.val / 8) * 2560 + r.val, h⟩ k := by
  obtain ⟨-, -, -, -, e4, e5, -, -⟩ := idx1 t
  obtain ⟨x0, x1, -, -⟩ := xsize1 t
  have hlt : ∀ a, ((ix2 r k : S2560x512.Idx) a).val < win1_2.xsize (grid1.coords t) a := fun a => by
    match a with
    | ⟨0, _⟩ => show r.val < win1_2.xsize (grid1.coords t) (0 : Fin 2); rw [x0]; have := r.isLt; omega
    | ⟨1, _⟩ => show k.val < win1_2.xsize (grid1.coords t) (1 : Fin 2); rw [x1]; exact k.isLt
  have hj : (ix2 r k : win1_2.block.Idx) = win1_2.xinj (grid1.coords t) (fun a => ⟨((ix2 r k : S2560x512.Idx) a).val, hlt a⟩) :=
    funext fun a => Fin.ext rfl
  refine (congrArg (win1_2.fill (grid1.coords t) d (iblk1 V c 2 t)) hj).trans ((win1_2.fill_xinj _ _ _ _).trans ?_)
  show V c main_arg1 (((cfg1.win 2).blk t).view.emb _) = V c main_arg1 (ix2 ⟨(t.val / 8) * 2560 + r.val, h⟩ k)
  refine congrArg (V c main_arg1) (funext fun a => Fin.ext ?_)
  match a with
  | ⟨0, _⟩ => show win1_2.index t (0 : Fin 2) * 2560 + 1 * r.val = (t.val / 8) * 2560 + r.val; rw [e4]; omega
  | ⟨1, _⟩ => show win1_2.index t (1 : Fin 2) * 512 + 1 * k.val = k.val; rw [e5]; omega

/-- A result block that is right on the columns inside the array is, cut there, the block of `OUT`. -/
theorem cut_eq_out (c : Dev nD) (t : Fin cfg1.N) (X : Vec Ideal S512x2560 .f32)
    (hX : ∀ (b : Fin 512) (c' : Fin 2560), (t.val / 8) * 2560 + c'.val < 10000 →
      X (ix2 b c') = (XSQv V c (rowOf t b) + PSQ V c ((t.val / 8) * 2560 + c'.val))
        - Cert.Spec.two * ∑ k : Fin 512, XNv V c (rowOf t b) k * PN V c ((t.val / 8) * 2560 + c'.val) k) :
    win1_3.cut (grid1.coords t) X = ((cfg1.win 3).blk t).view.read (Elt Ideal) (OUT V c) := by
  funext j
  obtain ⟨-, -, -, -, -, -, e6, e7⟩ := idx1 t
  obtain ⟨-, -, x2, x3⟩ := xsize1 t
  have h0 : (j 0).val < 512 := by
    have : (j 0).val < win1_3.xsize (grid1.coords t) (0 : Fin 2) := (j 0).isLt
    rw [x2] at this; exact this
  have h1 : (j 1).val < 2560 ∧ (t.val / 8) * 2560 + (j 1).val < 10000 := by
    have : (j 1).val < win1_3.xsize (grid1.coords t) (1 : Fin 2) := (j 1).isLt
    rw [x3] at this; omega
  have hj : win1_3.xinj (grid1.coords t) j = ix2 (⟨(j 0).val, h0⟩ : Fin 512) (⟨(j 1).val, h1.1⟩ : Fin 2560) :=
    funext fun a => Fin.ext (by match a with | ⟨0, _⟩ => rfl | ⟨1, _⟩ => rfl)
  have hr : (((cfg1.win 3).blk t).view.emb j) 0 = rowOf t ⟨(j 0).val, h0⟩ := Fin.ext (by
    show win1_3.index t (0 : Fin 2) * 512 + 1 * (j 0).val = (t.val % 8) * 512 + (j 0).val; rw [e6]; omega)
  have hc : ((((cfg1.win 3).blk t).view.emb j) 1).val = (t.val / 8) * 2560 + (j 1).val := by
    show win1_3.index t (1 : Fin 2) * 2560 + 1 * (j 1).val = (t.val / 8) * 2560 + (j 1).val; rw [e7]; omega
  show X (win1_3.xinj (grid1.coords t) j) = OUT V c (((cfg1.win 3).blk t).view.emb j)
  rw [hj, hX _ _ h1.2]
  unfold OUT
  rw [hr, hc]

end Cert.KernelIdeal.Hand

end
-- ==== Proof.KI.Oblig1.lean ====
/-
  Region 1 (the distances) at the extended reals: the body obligation.

  At the first point of a column tile the body scales the proxy window's buffer into the two scratch buffers: every
  scratch row that holds a real proxy row then holds that row's scaled entries and its squared length, whatever the
  buffer held past the array's end. At the other seven points of the tile the scratch is read as found and kept. Either
  way the result block is, on the columns inside the array, the squared length stored for the row plus that of the
  proxy row, less twice their inner product: the block of `OUT`. The two row windows' buffers are left as found; the
  proxy and the result windows' are stated on the part inside their arrays only.
-/
import proofs.«411351_j18451179503909_3_alg».proof.Proof.Gen.KernelIdeal.Launch
import proofs.«411351_j18451179503909_3_alg».proof.Proof.Gen.KernelIdeal.Skeleton
import proofs.«411351_j18451179503909_3_alg».proof.Proof.Gen.KernelIdeal.Points
import proofs.«411351_j18451179503909_3_alg».proof.Proof.KI.Body
import proofs.«411351_j18451179503909_3_alg».proof.Proof.KI.Data1
import proofs.«411351_j18451179503909_3_alg».proof.Proof.KI.Blocks1
import proofs.«411351_j18451179503909_3_alg».proof.Proof.PayIdx
import proofs.«411351_j18451179503909_3_alg».proof.Proof.Spec
import Idealize.ShloMosaic.Lib.ValueIdx
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open ValueIdx

variable (V : (c : Dev nD) → (b : Ref sig .tc) → Buf (Elt Ideal) ((c : Thread nD τ).loc b))

/-! ## The scratch the first point of a column tile leaves, and the result block from good scratch -/

/-- Scaled from the proxy window's buffer, a scratch row that holds a real proxy row holds its scaled entries and its
    squared length. -/
theorem fresh_scratch (c : Dev nD) (t : Fin cfg1.N) (d) (r : Fin 2560) (h : (t.val / 8) * 2560 + r.val < 10000) :
    (∀ k : Fin 512, k1_pay2 (F := Ideal) (win1_2.fill (grid1.coords t) d (iblk1 V c 2 t)) (ix2 r k)
        = PN V c ((t.val / 8) * 2560 + r.val) k)
      ∧ k1_pay3 (F := Ideal) (win1_2.fill (grid1.coords t) d (iblk1 V c 2 t)) (ix2 0 r)
        = PSQ V c ((t.val / 8) * 2560 + r.val) := by
  have hrow : ∀ j : Fin 512, (fun r k => win1_2.fill (grid1.coords t) d (iblk1 V c 2 t) (ix2 r k)) r j
      = Cert.Spec.rowsP (V c main_arg1) ⟨(t.val / 8) * 2560 + r.val, h⟩ j := fun j => fill1_2_apply V c t d r j h
  constructor
  · intro k
    unfold PN
    rw [dif_pos h, Pay.k1_pay2_apply]
    exact Pay.nrm_congr _ _ r _ hrow k
  · unfold PSQ
    rw [dif_pos h, Pay.k1_pay3_apply]
    exact Pay.sq_congr _ _ r _ hrow

/-- From scratch that is right on the rows that hold real proxy rows, the body's result block is, on the columns
    inside the array, the block of `OUT`. -/
theorem result_cut (c : Dev nD) (t : Fin cfg1.N) (s0 : Vec Ideal S2560x512 .bf16) (s1 : Vec Ideal S1x2560 .f32)
    (hs : ∀ r : Fin 2560, (t.val / 8) * 2560 + r.val < 10000 →
      (∀ k : Fin 512, s0 (ix2 r k) = PN V c ((t.val / 8) * 2560 + r.val) k) ∧ s1 (ix2 0 r) = PSQ V c ((t.val / 8) * 2560 + r.val)) :
    win1_3.cut (grid1.coords t) (k1_pay4 (F := Ideal) (iblk1 V c 0 t) s0 (iblk1 V c 1 t) s1)
      = ((cfg1.win 3).blk t).view.read (Elt Ideal) (OUT V c) := by
  refine cut_eq_out V c t _ fun b c' h => ?_
  rw [Pay.k1_pay4_apply, iblk1_1_apply, (hs c' h).2]
  refine congrArg (_ - Cert.Spec.two * ·) (Finset.sum_congr rfl fun k _ => ?_)
  rw [iblk1_0_apply, (hs c' h).1 k]

/-! ## The body at a point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the two row windows' buffers as found, the proxy and the result windows' stated on the part
    inside their arrays. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (∃ d, owns (c : Thread nD τ) (st1_2 t) fullShare
        (win1_2.fill (grid1.coords t) d (win1_2.cut (grid1.coords t) ((dat1 V c).after 2 t))))
    ∗ (∃ d, owns (c : Thread nD τ) (st1_3 t) fullShare
        (win1_3.fill (grid1.coords t) d (win1_3.cut (grid1.coords t) ((dat1 V c).after 3 t)))))

theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    Φ_eq1, Φ_eq1, after1_0, after1_1, after1_2, win1_2.cut_fill,
    show win1_3.cut (grid1.coords t) ((dat1 V c).after 3 t) = ((cfg1.win 3).blk t).view.read (Elt Ideal) (OUT V c) from flushed1_3 V c t]
  unfold Φ1
  iintro ⟨⟨Hrest, Hreg, ⟨%s0, %s1, %hs, Hs0, Hs1⟩⟩, Ho, ⟨%d0, H0⟩, ⟨%d1, H1⟩, ⟨%d2, H2⟩, ⟨%d3, H3⟩⟩
  by_cases hm : t.val % 8 = 0
  · -- the first point of a column tile: the scratch is scaled afresh from the proxy window's buffer
    iapply (sound_kernel1_A c Set.univ (grid1.coords t) ((hcond1 t).mpr hm) _ _ _ _ _ _ _ _ _ _ _ _
      (iblk1 V c 0 t) (iblk1 V c 1 t) (win1_2.fill (grid1.coords t) d2 (iblk1 V c 2 t)) _)
    isplitl [H0]; · iexact H0
    isplitl [H1]; · iexact H1
    isplitl [H2]; · iexact H2
    isplitl [H3]; · iexists _; iexact H3
    isplitl [Hs0]; · iexists _; iexact Hs0
    isplitl [Hs1]; · iexists _; iexact Hs1
    iintro ⟨H0, H1, H2, H3, Hs0, Hs1⟩
    isplitl [Hrest Hreg Hs0 Hs1]
    · isplitl [Hrest]; · iexact Hrest
      isplitl [Hreg]; · iexact Hreg
      iexists _; iexists _
      isplitr
      · ipureintro
        intro hne r hr
        have e : (t.succ : Fin (cfg1.N + 1)).val / 8 = t.val / 8 := by
          have : (t.succ : Fin (cfg1.N + 1)).val = t.val + 1 := rfl
          rw [this] at hne ⊢; omega
        rw [e] at hr ⊢
        exact fresh_scratch V c t d2 r hr
      isplitl [Hs0]; · iexact Hs0
      iexact Hs1
    isplitl [Ho]; · iexact Ho
    isplitl [H0]; · iexact H0
    isplitl [H1]; · iexact H1
    isplitl [H2]; · iexists d2; iexact H2
    iexists _
    rw [← result_cut V c t _ _ (fun r hr => fresh_scratch V c t d2 r hr), win1_3.fill_cut]
    iexact H3
  · -- every other point: the scratch is read as found and kept
    iapply (sound_kernel1_B c Set.univ (grid1.coords t) (fun h => hm ((hcond1 t).mp h)) _ _ _ _ _ _ _ _ _ _ _ _
      (iblk1 V c 0 t) (iblk1 V c 1 t) (win1_2.fill (grid1.coords t) d2 (iblk1 V c 2 t)) s0 s1 _)
    isplitl [H0]; · iexact H0
    isplitl [H1]; · iexact H1
    isplitl [H2]; · iexact H2
    isplitl [H3]; · iexists _; iexact H3
    isplitl [Hs0]; · iexact Hs0
    isplitl [Hs1]; · iexact Hs1
    iintro ⟨H0, H1, H2, H3, Hs0, Hs1⟩
    have hs' : ∀ r : Fin 2560, (t.val / 8) * 2560 + r.val < 10000 →
        (∀ k : Fin 512, s0 (ix2 r k) = PN V c ((t.val / 8) * 2560 + r.val) k) ∧ s1 (ix2 0 r) = PSQ V c ((t.val / 8) * 2560 + r.val) :=
      hs hm
    isplitl [Hrest Hreg Hs0 Hs1]
    · isplitl [Hrest]; · iexact Hrest
      isplitl [Hreg]; · iexact Hreg
      iexists s0; iexists s1
      isplitr
      · ipureintro
        intro hne r hr
        have e : (t.succ : Fin (cfg1.N + 1)).val / 8 = t.val / 8 := by
          have : (t.succ : Fin (cfg1.N + 1)).val = t.val + 1 := rfl
          rw [this] at hne ⊢; omega
        rw [e] at hr ⊢
        exact hs' r hr
      isplitl [Hs0]; · iexact Hs0
      iexact Hs1
    isplitl [Ho]; · iexact Ho
    isplitl [H0]; · iexact H0
    isplitl [H1]; · iexact H1
    isplitl [H2]; · iexists d2; iexact H2
    iexists _
    rw [← result_cut V c t s0 s1 hs', win1_3.fill_cut]
    iexact H3

theorem body_obligation1 (c : Dev nD) : BodyObligationLoose (dat1 V c) (defs₀ (F := Ideal)) Variants.none () Set.univ := fun t => by
  rw [bigSep_W1, bigSep_W1]
  exact sound_body1 V c t

end Cert.KernelIdeal.Hand

end
-- ==== Proof.KI.Run.lean ====
import proofs.«411351_j18451179503909_3_alg».proof.Proof.Gen.KernelIdeal.Launch
import proofs.«411351_j18451179503909_3_alg».proof.Proof.Gen.KernelIdeal.Skeleton
import proofs.«411351_j18451179503909_3_alg».proof.Proof.Gen.KernelIdeal.Points
import proofs.«411351_j18451179503909_3_alg».proof.Proof.KI.Vals
import proofs.«411351_j18451179503909_3_alg».proof.Proof.KI.Oblig1
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open ValueIdx
/-! ## The run of the idealized kernel program: two regions in order, from the launch to the return

Each region is entered from the thread state "every unscoped buffer of the core at the boundary's contents, the
generator register at some state, nothing owed" and left at the same with the next boundary's contents; the last
state is read against the final memory. -/

variable (m : (ℓ : Loc nD τ sig) → Buf (Elt Ideal) ℓ) (ρ : Dev nD → PrngReg)

/-- No pipeline has a prefetched table. -/
abbrev admI : (p : Fin 2) → (pcfgs (F := Ideal) p).Adm := fun p => (cfgs p).toPCfg_adm

/-- Every pipeline's proof data, each at its region's entry contents. -/
def pdats : (p : Fin 2) → (c : Dev nD) → Dat τ (Elt Ideal) Unit ℕ (UR sig nD τ) ℕ (Pipeline.pin (pcfgs (F := Ideal)) admI p) c
  | ⟨0, _⟩ => fun c => dat0 (V0 m) c
  | ⟨1, _⟩ => fun c => dat1 (V1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The last thread state without the dues. -/
abbrev Tₙ (c : Dev nD) : sProp 𝕄 := iprop(StableHlo.held (c : Thread nD τ) (Pipeline.ucRefs τ sig) (W2 m c) ∗ ∃ r, prngReg c r)

set_option backward.isDefEq.respectTransparency.types false in
/-- REGION 0 over the thread state: entered at the launch contents, left at `W1`. -/
def reg0 : Pipeline.RegionSeg (pcfgs (F := Ideal)) admI (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := Ideal)) admI (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) admI (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered at `W1`, left at `W2`. The two scratch buffers go from the scoped
    rest into the body's invariant at some contents (nothing is known of them before the first point) and come back
    at some contents. -/
def reg1 : Pipeline.RegionSeg (pcfgs (F := Ideal)) admI (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V1 m) c
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := Ideal)) admI (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have e : (Pipeline.scopedRest (Pipeline.pin (pcfgs (F := Ideal)) admI 1).spec c : sProp 𝕄) = _ := scopedRest1_eq c
    rw [show (pdats m 1 c).Φ 0 = Φ1 (V1 m) c 0 from rfl, e]; unfold Φ1 rest6
    simp only [owns_whole_eq]
    iintro ⟨Hp, -, H0, H1, H2, H3, H4, H5, ⟨%f6, H6⟩, ⟨%f7, H7⟩⟩
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [Hp]; · iexact Hp
    iexists f6, f7
    isplitr; · ipureintro; exact fun h => absurd rfl h
    isplitl [H6]
    · iexists f6; isplitr; · ipureintro; rfl
      iexact H6
    · iexists f7; isplitr; · ipureintro; rfl
      iexact H7
  hout c := by
    have e : (Pipeline.scopedRest (Pipeline.pin (pcfgs (F := Ideal)) admI 1).spec c : sProp 𝕄) = _ := scopedRest1_eq c
    rw [Pipeline.ownSems0_none, show (pdats m 1 c).Φ (Fin.last _) = Φ1 (V1 m) c (Fin.last _) from rfl, e]; unfold Φ1 rest6
    simp only [owns_whole_eq]
    iintro ⟨⟨H0, H1, H2, H3, H4, H5⟩, Hp, ⟨%s0, %s1, -, ⟨%f6, -, H6⟩, ⟨%f7, -, H7⟩⟩⟩
    isplitl [Hp]; · iexact Hp
    isplitr; · iempintro
    isplitl [H0]; · iexact H0
    isplitl [H1]; · iexact H1
    isplitl [H2]; · iexact H2
    isplitl [H3]; · iexact H3
    isplitl [H4]; · iexact H4
    isplitl [H5]; · iexact H5
    isplitl [H6]; · iexists f6; iexact H6
    iexists f7; iexact H7
  hexit c := by
    have hjoin := Pipeline.unscopedBufs_of_arrays (p := 1) (pcfgs (F := Ideal)) admI (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two regions, and the launch -/

abbrev segs : List (Pipeline.Seg (pcfgs (F := Ideal)) admI (pdats m) () defs₀ 𝒱₀ L lv) :=
  [ .region (reg0 m), .region (reg1 m) ]

/-- @main IS the run of the two regions. -/
theorem main_run (c : Dev nD) : main (F := Ideal) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    the final memory holds every unscoped buffer of every core at the last boundary's contents `W2`. -/
theorem run_main : θ_run defs (onTc (τ := τ) (main (F := Ideal))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := Ideal)) admI (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

end Cert.KernelIdeal.Hand

end
-- ==== Proof.KI.Value.lean ====
/-
  What the arrays hold after each region, as functions of the launch memory, over the extended reals.

  Region 0 scales the rows of the first argument: its first result array ends holding `nrm x r k` at `(r, k)`, its
  second the squared length `sq x r` of the scaled row `r`; both arguments keep their launch contents. Region 1 then
  writes, block by block, the distance array: at `(b, c)` the stored squared length of row `b` plus that of the scaled
  proxy row `c`, less twice the inner product of the two scaled rows; read through region 0's results that is the
  specification's `G` of the two arguments.

  Each output array is proved whole from its blocks: what a grid point writes back is that point's block of ONE
  function of the array's index, and the blocks of the points together cover the array (row `r` lies in row tile
  `r / rows per block`, column `c` in column tile `c / columns per block`; the last column tile of the distance
  array is cut at the array's end, 10000 = 3 · 2560 + 2320).
-/
import proofs.«411351_j18451179503909_3_alg».proof.Proof.Gen.KernelIdeal.Launch
import proofs.«411351_j18451179503909_3_alg».proof.Proof.Gen.KernelIdeal.Skeleton
import proofs.«411351_j18451179503909_3_alg».proof.Proof.Gen.KernelIdeal.Points
import proofs.«411351_j18451179503909_3_alg».proof.Proof.KI.Data0
import proofs.«411351_j18451179503909_3_alg».proof.Proof.KI.Data1
import proofs.«411351_j18451179503909_3_alg».proof.Proof.KI.Vals
import proofs.«411351_j18451179503909_3_alg».proof.Proof.PayIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open ValueIdx

variable (m : (ℓ : Loc nD τ sig) → Buf (Elt Ideal) ℓ)

/-! ## The arguments are never written by region 0 -/

/-- The second argument is no window of region 0. -/
theorem V1_arg1 (c : Dev nD) : V1 m c main_arg1 = m ((c : Thread nD τ).loc main_arg1) :=
  W1_of_ne m c main_arg1 (by decide)

/-- The first argument is region 0's input window: staged, never written back. -/
theorem V1_arg0 (c : Dev nD) : V1 m c main_arg0 = m ((c : Thread nD τ).loc main_arg0) :=
  (W1_arr m c 0).trans (((dat0 (V0 m) c).arrAt_in 0 rfl _).trans (A_eq0 (V0 m) c 0))

/-! ## Region 0: where a block's element sits in its array

The three windows of region 0 move together: at point `t` each is at row tile `t` and the one column tile, so the
element `(r, k)` of a block is the array's `(t · 2048 + r, k)`. -/

/-- The printed index maps of region 0, decided over its two points. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem lt_N0 (t : Fin cfg0.N) : t.val < 2 := lt_of_lt_of_eq t.isLt N_0

/-- Row `r` of the block at point `t`, as a row of the whole array. -/
abbrev row0 (t : Fin cfg0.N) (r : Fin 2048) : Fin 4096 := ⟨t.val * 2048 + r.val, by have := lt_N0 t; have := r.isLt; omega⟩

theorem emb0_0 (t : Fin cfg0.N) (r : Fin 2048) (k : Fin 512) :
    ((cfg0.win 0).blk t).view.emb (ix2 r k) = ix2 (row0 t r) k := by
  obtain ⟨e0, e1, -⟩ := index0 t
  funext a; apply Fin.ext
  match a with
  | ⟨0, _⟩ => show win0_0.index t (0 : Fin 2) * 2048 + 1 * r.val = t.val * 2048 + r.val; omega
  | ⟨1, _⟩ => show win0_0.index t (1 : Fin 2) * 512 + 1 * k.val = k.val; omega

theorem emb0_1 (t : Fin cfg0.N) (r : Fin 2048) (k : Fin 512) :
    ((cfg0.win 1).blk t).view.emb (ix2 r k) = ix2 (row0 t r) k := by
  obtain ⟨-, -, e0, e1, -⟩ := index0 t
  funext a; apply Fin.ext
  match a with
  | ⟨0, _⟩ => show win0_1.index t (0 : Fin 2) * 2048 + 1 * r.val = t.val * 2048 + r.val; omega
  | ⟨1, _⟩ => show win0_1.index t (1 : Fin 2) * 512 + 1 * k.val = k.val; omega

theorem emb0_2 (t : Fin cfg0.N) (r : Fin 2048) (u : Fin 1) :
    ((cfg0.win 2).blk t).view.emb (ix2 r u) = ix2 (row0 t r) u := by
  obtain ⟨-, -, -, -, e0, e1⟩ := index0 t
  funext a; apply Fin.ext
  match a with
  | ⟨0, _⟩ => show win0_2.index t (0 : Fin 2) * 2048 + 1 * r.val = t.val * 2048 + r.val; omega
  | ⟨1, _⟩ => show win0_2.index t (1 : Fin 2) * 1 + 1 * u.val = u.val; omega

/-- The input block at point `t`, read at `(r, j)`: the first argument at row `t · 2048 + r`. -/
theorem iblk0_apply (c : Dev nD) (t : Fin cfg0.N) (r : Fin 2048) (j : Fin 512) :
    iblk0 (V0 m) c 0 t (ix2 r j) = Cert.Spec.rowsX (m ((c : Thread nD τ).loc main_arg0)) (row0 t r) j := by
  show V0 m c main_arg0 (((cfg0.win 0).blk t).view.emb (ix2 r j)) = _
  rw [emb0_0]
  rfl

/-! ## Region 0: what each point writes back, the cover, and the two result arrays -/

/-- The contents the first result array is to end with: the scaled first argument. -/
abbrev XN (c : Dev nD) : Buf (Elt Ideal) ((cfg0.win 1).arr.view.loc (c : Thread nD τ)) :=
  fun i => Cert.Spec.nrm (Cert.Spec.rowsX (m ((c : Thread nD τ).loc main_arg0))) (i 0) (i 1)

/-- The contents the second result array is to end with: the squared lengths of the scaled rows. -/
abbrev XSQ (c : Dev nD) : Buf (Elt Ideal) ((cfg0.win 2).arr.view.loc (c : Thread nD τ)) :=
  fun i => Cert.Spec.sq (Cert.Spec.rowsX (m ((c : Thread nD τ).loc main_arg0))) (i 0)

/-- Point `t` writes back block `t` of the scaled argument: row `r` of the block is scaled by its own length, and that
    row is row `t · 2048 + r` of the argument. -/
theorem flushed0_1 (c : Dev nD) (t : Fin cfg0.N) :
    (dat0 (V0 m) c).flushed 1 t = ((cfg0.win 1).blk t).view.read (Elt Ideal) (XN m c) := by
  show (dat0 (V0 m) c).after 1 t = _
  rw [after0_1]
  funext y
  obtain ⟨r, k, rfl⟩ : ∃ (r : Fin 2048) (k : Fin 512), y = ix2 r k := ⟨y 0, y 1, eq_ix2 y⟩
  refine (Pay.k0_pay2_apply _ r k).trans ?_
  show _ = XN m c (((cfg0.win 1).blk t).view.emb (ix2 r k))
  rw [emb0_1]
  exact Pay.nrm_congr _ _ r (row0 t r) (fun j => iblk0_apply m c t r j) k

/-- Point `t` writes back block `t` of the squared lengths. -/
theorem flushed0_2 (c : Dev nD) (t : Fin cfg0.N) :
    (dat0 (V0 m) c).flushed 2 t = ((cfg0.win 2).blk t).view.read (Elt Ideal) (XSQ m c) := by
  show (dat0 (V0 m) c).after 2 t = _
  rw [after0_2]
  funext y
  obtain ⟨r, u, rfl⟩ : ∃ (r : Fin 2048) (u : Fin 1), y = ix2 r u := ⟨y 0, y 1, eq_ix2 y⟩
  obtain rfl : u = 0 := Subsingleton.elim _ _
  refine (Pay.k0_pay3_apply _ r).trans ?_
  show _ = XSQ m c (((cfg0.win 2).blk t).view.emb (ix2 r 0))
  rw [emb0_2]
  exact Pay.sq_congr _ _ r (row0 t r) (fun j => iblk0_apply m c t r j)

/-- An index of the first result array is in point `t`'s block iff each coordinate is in the block's range. -/
theorem mem_blk0_1 (t : Fin cfg0.N) (i : S4096x512.Idx) :
    i ∈ ((cfg0.win 1).blk t).view.set ↔ ∀ a : Fin 2, win0_1.index t a * S2048x512.size a ≤ (i a).val ∧ (i a).val < win0_1.index t a * S2048x512.size a + S2048x512.size a := by
  show i ∈ ((View.whole main_v0_0).slice (win0_1.rect t)).set ↔ _
  rw [View.set_slice_whole, Rect.mem_set_unit]
  exact Iff.rfl

theorem mem_blk0_2 (t : Fin cfg0.N) (i : S4096x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v0_1).slice (win0_2.rect t)).set ↔ _
  rw [View.set_slice_whole, Rect.mem_set_unit]
  exact Iff.rfl

/-- Row `r` lies in row tile `r / 2048`: the two blocks cover the first result array. -/
theorem cover0_1 (c : Dev nD) (i : ((cfg0.win 1).arr.view.loc (c : Thread nD τ)).2.ty.Idx) :
    ∃ t : Fin cfg0.N, (cfg0.win 1).flush t = true ∧ i ∈ ((cfg0.win 1).blk t).view.set := by
  have h0 : (i 0).val < 4096 := (i 0).isLt
  have h1 : (i 1).val < 512 := (i 1).isLt
  refine ⟨⟨(i 0).val / 2048, by rw [show cfg0.N = 2 from N_0]; omega⟩, flush0_1 _, ?_⟩
  rw [mem_blk0_1]
  obtain ⟨-, -, e0, e1, -⟩ := index0 ⟨(i 0).val / 2048, by rw [show cfg0.N = 2 from N_0]; omega⟩
  intro a
  match a with
  | ⟨0, _⟩ =>
    show win0_1.index _ (0 : Fin 2) * 2048 ≤ (i 0).val ∧ (i 0).val < win0_1.index _ (0 : Fin 2) * 2048 + 2048
    rw [e0]; show (i 0).val / 2048 * 2048 ≤ (i 0).val ∧ (i 0).val < (i 0).val / 2048 * 2048 + 2048; omega
  | ⟨1, _⟩ =>
    show win0_1.index _ (1 : Fin 2) * 512 ≤ (i 1).val ∧ (i 1).val < win0_1.index _ (1 : Fin 2) * 512 + 512
    rw [e1]; omega

/-- The same for the column of squared lengths. -/
theorem cover0_2 (c : Dev nD) (i : ((cfg0.win 2).arr.view.loc (c : Thread nD τ)).2.ty.Idx) :
    ∃ t : Fin cfg0.N, (cfg0.win 2).flush t = true ∧ i ∈ ((cfg0.win 2).blk t).view.set := by
  have h0 : (i 0).val < 4096 := (i 0).isLt
  have h1 : (i 1).val < 1 := (i 1).isLt
  refine ⟨⟨(i 0).val / 2048, by rw [show cfg0.N = 2 from N_0]; omega⟩, flush0_2 _, ?_⟩
  rw [mem_blk0_2]
  obtain ⟨-, -, -, -, e0, e1⟩ := index0 ⟨(i 0).val / 2048, by rw [show cfg0.N = 2 from N_0]; omega⟩
  intro a
  match a with
  | ⟨0, _⟩ =>
    show win0_2.index _ (0 : Fin 2) * 2048 ≤ (i 0).val ∧ (i 0).val < win0_2.index _ (0 : Fin 2) * 2048 + 2048
    rw [e0]; show (i 0).val / 2048 * 2048 ≤ (i 0).val ∧ (i 0).val < (i 0).val / 2048 * 2048 + 2048; omega
  | ⟨1, _⟩ =>
    show win0_2.index _ (1 : Fin 2) * 1 ≤ (i 1).val ∧ (i 1).val < win0_2.index _ (1 : Fin 2) * 1 + 1
    rw [e1]; omega

/-- After region 0 the first result array holds the scaled first argument. -/
theorem V1_v0_0 (c : Dev nD) : V1 m c main_v0_0 = fun i => Cert.Spec.nrm (Cert.Spec.rowsX (m ((c : Thread nD τ).loc main_arg0))) (i 0) (i 1) :=
  (W1_arr m c 1).trans ((dat0 (V0 m) c).arrAt_eq_of_cover 1 (XN m c) (fun t _ => flushed0_1 m c t) (cover0_1 c))

/-- After region 0 the second result array holds the squared lengths of the scaled rows. -/
theorem V1_v0_1 (c : Dev nD) : V1 m c main_v0_1 = fun i => Cert.Spec.sq (Cert.Spec.rowsX (m ((c : Thread nD τ).loc main_arg0))) (i 0) :=
  (W1_arr m c 2).trans ((dat0 (V0 m) c).arrAt_eq_of_cover 2 (XSQ m c) (fun t _ => flushed0_2 m c t) (cover0_2 c))

/-! ## Region 1: the distance array from its blocks

Point `t` is at column tile `t / 8` and row tile `t % 8`. The result window's block there is rows
`(t % 8) · 512 …` by columns `(t / 8) · 2560 …`, 512 rows always and 2560 columns except at the last column tile,
where the array ends after 2320. -/

/-- The printed index map of the result window and the sizes of what it moves, decided over the 32 points. -/
theorem index1_3 : ∀ t : Fin cfg1.N,
    win1_3.index t (0 : Fin 2) = t.val % 8 ∧ win1_3.index t (1 : Fin 2) = t.val / 8
    ∧ win1_3.xsize (grid1.coords t) (0 : Fin 2) = 512
    ∧ ((t.val / 8 < 3 ∧ win1_3.xsize (grid1.coords t) (1 : Fin 2) = 2560)
        ∨ (t.val / 8 = 3 ∧ win1_3.xsize (grid1.coords t) (1 : Fin 2) = 2320)) :=
  (by decide +kernel : ∀ t : Fin grid1.N, _)

/-- An index of the distance array is in point `t`'s block iff each coordinate is in the block's range, the range
    cut at the array's end. -/
theorem mem_blk1_3 (t : Fin cfg1.N) (i : S4096x10000.Idx) :
    i ∈ ((cfg1.win 3).blk t).view.set ↔ ∀ a : Fin 2, win1_3.index t a * S512x2560.size a ≤ (i a).val ∧ (i a).val < win1_3.index t a * S512x2560.size a + win1_3.xsize (grid1.coords t) a := by
  show i ∈ ((View.whole main_v1).slice (win1_3.rect t)).set ↔ _
  rw [View.set_slice_whole, Rect.mem_set_unit]
  exact Iff.rfl

/-- Column `c` lies in column tile `c / 2560` and row `r` in row tile `r / 512`: the 32 blocks cover the array. -/
theorem cover1_3 (c : Dev nD) (i : ((cfg1.win 3).arr.view.loc (c : Thread nD τ)).2.ty.Idx) :
    ∃ t : Fin cfg1.N, (cfg1.win 3).flush t = true ∧ i ∈ ((cfg1.win 3).blk t).view.set := by
  have h0 : (i 0).val < 4096 := (i 0).isLt
  have h1 : (i 1).val < 10000 := (i 1).isLt
  have hN : cfg1.N = 32 := N_1
  have ht : (i 1).val / 2560 * 8 + (i 0).val / 512 < cfg1.N := by rw [hN]; omega
  refine ⟨⟨(i 1).val / 2560 * 8 + (i 0).val / 512, ht⟩, flush1_3 _, ?_⟩
  rw [mem_blk1_3]
  obtain ⟨e0, e1, x0, x1⟩ := index1_3 ⟨(i 1).val / 2560 * 8 + (i 0).val / 512, ht⟩
  intro a
  match a with
  | ⟨0, _⟩ =>
    show win1_3.index _ (0 : Fin 2) * 512 ≤ (i 0).val ∧ (i 0).val < win1_3.index _ (0 : Fin 2) * 512 + win1_3.xsize _ (0 : Fin 2)
    rw [e0, x0]
    show ((i 1).val / 2560 * 8 + (i 0).val / 512) % 8 * 512 ≤ (i 0).val ∧ (i 0).val < ((i 1).val / 2560 * 8 + (i 0).val / 512) % 8 * 512 + 512
    omega
  | ⟨1, _⟩ =>
    show win1_3.index _ (1 : Fin 2) * 2560 ≤ (i 1).val ∧ (i 1).val < win1_3.index _ (1 : Fin 2) * 2560 + win1_3.xsize _ (1 : Fin 2)
    rw [e1]
    have x1' : (((i 1).val / 2560 * 8 + (i 0).val / 512) / 8 < 3 ∧ win1_3.xsize (grid1.coords ⟨(i 1).val / 2560 * 8 + (i 0).val / 512, ht⟩) (1 : Fin 2) = 2560)
        ∨ (((i 1).val / 2560 * 8 + (i 0).val / 512) / 8 = 3 ∧ win1_3.xsize (grid1.coords ⟨(i 1).val / 2560 * 8 + (i 0).val / 512, ht⟩) (1 : Fin 2) = 2320) := x1
    show ((i 1).val / 2560 * 8 + (i 0).val / 512) / 8 * 2560 ≤ (i 1).val ∧ (i 1).val < ((i 1).val / 2560 * 8 + (i 0).val / 512) / 8 * 2560 + win1_3.xsize (grid1.coords ⟨(i 1).val / 2560 * 8 + (i 0).val / 512, ht⟩) (1 : Fin 2)
    rcases x1' with ⟨hq, hx⟩ | ⟨hq, hx⟩ <;> rw [hx] <;> omega

/-- After region 1 the distance array holds `OUT` of the contents the region was entered with. -/
theorem arr1_3 (c : Dev nD) : (dat1 (V1 m) c).arrAt 3 cfg1.N = OUT (V1 m) c :=
  (dat1 (V1 m) c).arrAt_eq_of_cover 3 (OUT (V1 m) c) (fun t _ => flushed1_3 (V1 m) c t) (cover1_3 c)

/-! ## The distance array as the specification's function of the two arguments -/

/-- `OUT` read through region 0's results: the stored scaled rows and squared lengths are the specification's of the
    first argument, the proxy rows' those of the second. -/
theorem OUT_eq_G (c : Dev nD) : OUT (V1 m) c = Cert.Spec.G (m ((c : Thread nD τ).loc main_arg0)) (m ((c : Thread nD τ).loc main_arg1)) := by
  funext i
  unfold OUT Cert.Spec.G Cert.Spec.dist XSQv XNv PSQ PN
  rw [V1_v0_1, V1_v0_0, V1_arg1]
  simp only [dif_pos (show (i 1).val < 10000 from (i 1).isLt)]
  rfl

/-! ## After region 1 -/

theorem final_v1 (c : Dev nD) : V2 m c main_v1 = Cert.Spec.G (m ((c : Thread nD τ).loc main_arg0)) (m ((c : Thread nD τ).loc main_arg1)) :=
  (W2_arr m c 3).trans ((arr1_3 m c).trans (OUT_eq_G m c))

/-- The first argument is no window of region 1. -/
theorem final_arg0 (c : Dev nD) : V2 m c main_arg0 = m ((c : Thread nD τ).loc main_arg0) :=
  (W2_of_ne m c main_arg0 (by decide)).trans (V1_arg0 m c)

/-- The second argument is region 1's proxy window: staged, never written back. -/
theorem final_arg1 (c : Dev nD) : V2 m c main_arg1 = m ((c : Thread nD τ).loc main_arg1) :=
  (W2_arr m c 2).trans (((dat1 (V1 m) c).arrAt_in 2 rfl _).trans ((A_eq1 (V1 m) c 2).trans (V1_arg1 m c)))

end Cert.KernelIdeal.Hand

end
-- ==== Proof.KB.Body.lean ====
import proofs.«411351_j18451179503909_3_alg».proof.Proof.Gen.Kernel.Launch
import proofs.«411351_j18451179503909_3_alg».proof.Proof.Gen.Kernel.Skeleton
import proofs.«411351_j18451179503909_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two kernel bodies as triples

Every access of either body is a WHOLE staging or scratch buffer: a load reads the buffer's contents, a store leaves
its payload. So each body is one pure step from the contents it finds to the contents it leaves, the payloads
being the skeleton's named terms. Stated at any float instance. -/

/-- The zero offsets of every access, as the constant function. -/
theorem hz2 : (![0, 0] : Fin 2 → Nat) = fun _ => 0 := funext fun a => by fin_cases a <;> rfl

/-- What a whole store over anything leaves, read back: its payload. -/
theorem whole_store {S : Shape} {e : EltTy} {off : Fin S.rank → Nat} (h : off = fun _ => 0)
    (inb : ∀ a, off a + S.size a ≤ S.size a) (v : View sig .tc .vmem S e) (f : v.ty.Contents (Elt F)) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-- A whole load reads the contents. -/
theorem whole_load {S : Shape} {e : EltTy} {off : Fin S.rank → Nat} (h : off = fun _ => 0)
    (inb : ∀ a, off a + S.size a ≤ S.size a) (v : View sig .tc .vmem S e) (f : v.ty.Contents (Elt F)) :
    v.readAt (Elt F) (Rect.unit off S.size inb).toLoadRect f = v.read (Elt F) f := by
  rw [View.readAt_eq_ld, View.ld_unit_zero h]

/-! ### Region 0: one row block scaled, its scaled copy and the squared lengths of its scaled rows stored -/

set_option maxHeartbeats 1000000 in
/-- From the input block `x0` the body leaves `k0_pay2 x0` (the scaled block) and `k0_pay3 x0` (the column of
    squared lengths), the input as it was. -/
theorem sound_kernel0 (c : Dev nD) (E : Set ℕ) (i : grid0.Coords)
    (arg1 : Memref sig .tc .vmem S2048x512 .f32) (harg1 : arg1.IsWhole)
    (arg2 : Memref sig .tc .vmem S2048x512 .bf16) (harg2 : arg2.IsWhole)
    (arg3 : Memref sig .tc .vmem S2048x1 .f32) (harg3 : arg3.IsWhole)
    (x0 : Vec F S2048x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k0_pay2 x0)
            ∗ owns (c : Thread nD τ) arg3 fullShare (k0_pay3 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [whole_store hz2, whole_load hz2]
  · iexists _; isplitr
    swap; · iexact H2
    ipureintro
    rw [whole_store hz2, whole_load hz2]

/-! ### Region 1: the branch is on the second grid coordinate alone -/

/-- The body's one condition, from the grid coordinates: the inner coordinate is zero. -/
abbrev cond1 (i : grid1.Coords) : Prop :=
  (Scalar.cmpi .ne (Scalar.extui (Scalar.cmpi .eq (BitVec.ofNat 32 (i 1).val) 0#32)) 0#32) = 1#1

/-- It holds at the first of every eight points (the inner axis has eight). -/
theorem hcond1 : ∀ t : Fin cfg1.N, cond1 (grid1.coords t) ↔ t.val % 8 = 0 :=
  (by decide +kernel : ∀ t : Fin grid1.N, cond1 (grid1.coords t) ↔ t.val % 8 = 0)

set_option maxHeartbeats 2000000 in
/-- AT THE FIRST POINT OF A COLUMN TILE the body scales the proxy block `x2` into the two scratch buffers
    (`k1_pay2 x2`, `k1_pay3 x2`) and computes the result block from them. -/
theorem sound_kernel1_A (c : Dev nD) (E : Set ℕ) (i : grid1.Coords) (hc : cond1 i)
    (arg2 : Memref sig .tc .vmem S512x512 .bf16) (harg2 : arg2.IsWhole)
    (arg3 : Memref sig .tc .vmem S512x1 .f32) (harg3 : arg3.IsWhole)
    (arg4 : Memref sig .tc .vmem S2560x512 .f32) (harg4 : arg4.IsWhole)
    (arg5 : Memref sig .tc .vmem S512x2560 .f32) (harg5 : arg5.IsWhole)
    (arg6 : Memref sig .tc .vmem S2560x512 .bf16) (harg6 : arg6.IsWhole)
    (arg7 : Memref sig .tc .vmem S1x2560 .f32) (harg7 : arg7.IsWhole)
    (x0 : Vec F S512x512 .bf16) (x1 : Vec F S512x1 .f32) (x2 : Vec F S2560x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 x0 (k1_pay2 x2) x1 (k1_pay3 x2))
            ∗ owns (c : Thread nD τ) arg6 fullShare (k1_pay2 x2) ∗ owns (c : Thread nD τ) arg7 fullShare (k1_pay3 x2)) -∗ K ⟨⟩))
      ⊢ wp frame (wpE (defs₀ (F := F)) Variants.none c none) E
          (cc1__dist_kernel i arg2 harg2 arg3 harg3 arg4 harg4 arg5 harg5 arg6 harg6 arg7 harg7) K := by
  simp only [cc1__dist_kernel_eq_skeleton]; unfold cc1__dist_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [whole_store hz2]
    simp only [whole_load (S := S512x512) hz2, whole_load (S := S512x1) hz2, whole_load (S := S2560x512) hz2,
      View.readCov_unit_zero (S := S2560x512) _ hz2, View.readCov_unit_zero (S := S1x2560) _ hz2]
  isplitl [H4]
  · iexists _; isplitr
    swap; · iexact H4
    ipureintro
    sl_unfold_words
    rw [whole_store hz2, whole_load hz2]
  · iexists _; isplitr
    swap; · iexact H5
    ipureintro
    sl_unfold_words
    rw [whole_store hz2, whole_load hz2]

set_option maxHeartbeats 2000000 in
/-- AT EVERY OTHER POINT the scratch buffers are read as found (`s0`, `s1`) and kept; the result block is computed
    from them. -/
theorem sound_kernel1_B (c : Dev nD) (E : Set ℕ) (i : grid1.Coords) (hc : ¬ cond1 i)
    (arg2 : Memref sig .tc .vmem S512x512 .bf16) (harg2 : arg2.IsWhole)
    (arg3 : Memref sig .tc .vmem S512x1 .f32) (harg3 : arg3.IsWhole)
    (arg4 : Memref sig .tc .vmem S2560x512 .f32) (harg4 : arg4.IsWhole)
    (arg5 : Memref sig .tc .vmem S512x2560 .f32) (harg5 : arg5.IsWhole)
    (arg6 : Memref sig .tc .vmem S2560x512 .bf16) (harg6 : arg6.IsWhole)
    (arg7 : Memref sig .tc .vmem S1x2560 .f32) (harg7 : arg7.IsWhole)
    (x0 : Vec F S512x512 .bf16) (x1 : Vec F S512x1 .f32) (x2 : Vec F S2560x512 .f32)
    (s0 : Vec F S2560x512 .bf16) (s1 : Vec F S1x2560 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s0 ∗ owns (c : Thread nD τ) arg7 fullShare s1
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 x0 s0 x1 s1)
            ∗ owns (c : Thread nD τ) arg6 fullShare s0 ∗ owns (c : Thread nD τ) arg7 fullShare s1) -∗ K ⟨⟩))
      ⊢ wp frame (wpE (defs₀ (F := F)) Variants.none c none) E
          (cc1__dist_kernel i arg2 harg2 arg3 harg3 arg4 harg4 arg5 harg5 arg6 harg6 arg7 harg7) K := by
  simp only [cc1__dist_kernel_eq_skeleton]; unfold cc1__dist_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [whole_store hz2]
    simp only [whole_load (S := S512x512) hz2, whole_load (S := S512x1) hz2, whole_load (S := S2560x512) hz2,
      whole_load (S := S1x2560) hz2]
  isplitl [H4]
  · iexists f4; isplitr; · ipureintro; rfl
    iexact H4
  · iexists f5; isplitr; · ipureintro; rfl
    iexact H5

end Cert.Kernel.Hand

end
-- ==== Proof.KB.Data0.lean ====
import proofs.«411351_j18451179503909_3_alg».proof.Proof.Gen.Kernel.Launch
import proofs.«411351_j18451179503909_3_alg».proof.Proof.Gen.Kernel.Skeleton
import proofs.«411351_j18451179503909_3_alg».proof.Proof.Gen.Kernel.Points
import proofs.«411351_j18451179503909_3_alg».proof.Proof.KB.Body
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 0 (the row scaling of the first argument): the proof data and the body obligation

At a PARAMETER `V`, the core's buffer contents when the region is entered. The grid has two points, each a block
of 2048 rows; the windows tile their arrays. After the body at point `t` the input's staging buffer holds its
block, the first output's the scaled block, the second's the column of squared lengths: the body's payloads of the
input block. Stated at any float instance. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body the input's
    buffer at its block, the outputs' at the body's two payloads of it; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (iblk0 V c 0 t)
    | ⟨2, _⟩ => k0_pay3 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay2 (iblk0 V c 0 t) := by dsimp only [dat0]
theorem after0_2 (c : Dev nD) (t : Fin cfg0.N) : (dat0 V c).after 2 t = k0_pay3 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Data1F.lean ====
import proofs.«411351_j18451179503909_3_alg».proof.Proof.Gen.Kernel.Launch
import proofs.«411351_j18451179503909_3_alg».proof.Proof.Gen.Kernel.Skeleton
import proofs.«411351_j18451179503909_3_alg».proof.Proof.Gen.Kernel.Points
import proofs.«411351_j18451179503909_3_alg».proof.Proof.KB.Body
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Region 1 (the distances): proof data that name nothing, and the body obligation

The body's matrix product is, at the word level, an unnamed function of its whole operands, and the clipped
windows' staging buffers hold words beyond the arrays' ends that nobody names. A frame reads none of it: every
window is handed to the body at some contents and taken back at some contents. The invariant carries the scoped
buffers no window stages, the two scratch buffers among them, each at some contents, and the generator register
at some state. -/

variable (V : (c : Dev nD) → (b : Ref sig .tc) → Buf (Elt F) ((c : Thread nD τ).loc b))

/-- The proof data of pipeline 1 on core `c`: the arrays as the region finds them; what the body leaves in any
    window is not named; the scoped rest and the generator register at some contents; nothing owed; full shares. -/
def dat1f (c : Dev nD) : Dat τ (Elt F) Unit ℕ (UR sig nD τ) ℕ cfg1 c where
  A w := V c (Pipeline.arrRef spec1 w)
  after w t := Dat.unnamed w t
  Φ _ := Pipeline.ΦA spec1 c
  q _ := fullShare
  owed _ := 0

theorem A_eq1f (c : Dev nD) (w : Fin cfg1.W) : (dat1f V c).A w = V c (Pipeline.arrRef spec1 w) := by
  dsimp only [dat1f]

/-- What the body is called with at point `t`: the invariant (which holds the other pipeline's staging buffers, the
    two scratch buffers and the generator register), the core's dues, and the four windows' current buffers, each at
    some contents. -/
def bodyPre1 (c : Dev nD) (t : Fin cfg1.N) : sProp 𝕄 :=
  iprop((dat1f V c).Φ t.castSucc ∗ (dat1f V c).owesAt () t.castSucc
    ∗ (∃ X, owns (c : Thread nD τ) (st1_0 t) fullShare X)
    ∗ (∃ X, owns (c : Thread nD τ) (st1_1 t) fullShare X)
    ∗ (∃ X, owns (c : Thread nD τ) (st1_2 t) fullShare X)
    ∗ (∃ X, owns (c : Thread nD τ) (st1_3 t) fullShare X))

/-- and what it returns: the same, at some contents again. -/
def bodyPost1 (c : Dev nD) (t : Fin cfg1.N) : sProp 𝕄 :=
  iprop((dat1f V c).Φ t.succ ∗ (dat1f V c).owesAt () t.succ
    ∗ (∃ X, owns (c : Thread nD τ) (st1_0 t) fullShare X)
    ∗ (∃ X, owns (c : Thread nD τ) (st1_1 t) fullShare X)
    ∗ (∃ X, owns (c : Thread nD τ) (st1_2 t) fullShare X)
    ∗ (∃ X, owns (c : Thread nD τ) (st1_3 t) fullShare X))

/-- The body at any point, from any contents: at the first point of a column tile the branch is taken and the body's
    triple from ANY scratch contents applies; at every other point the triple that keeps the scratch buffers as found.
    Either way every buffer comes back at some contents, which is all that is asked. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1f V c).Φ t.succ = Pipeline.ΦA spec1 c from rfl, show (dat1f V c).Φ t.castSucc = Pipeline.ΦA spec1 c from rfl,
    show (dat1f V c).owesAt () t.succ = (dat1f V c).owesAt () t.castSucc from rfl]
  unfold Pipeline.ΦA
  rw [scopedRest1_eq]
  iintro ⟨⟨⟨Hs0, Hs1, Hs2, Hs3, Hs4, Hs5, ⟨%s0, Hc0⟩, ⟨%s1, Hc1⟩⟩, Hp⟩, Ho, ⟨%x0, H0⟩, ⟨%x1, H1⟩, ⟨%x2, H2⟩, ⟨%x3, H3⟩⟩
  by_cases ht : t.val % 8 = 0
  · have hc := (hcond1 t).mpr ht
    iapply (sound_kernel1_A c Set.univ _ hc _ _ _ _ _ _ _ _ _ _ _ _ x0 x1 x2 _)
    isplitl [H0]; · iexact H0
    isplitl [H1]; · iexact H1
    isplitl [H2]; · iexact H2
    isplitl [H3]; · iexists _; iexact H3
    isplitl [Hc0]; · iexists s0; rw [owns_whole]; iexact Hc0
    isplitl [Hc1]; · iexists s1; rw [owns_whole]; iexact Hc1
    iintro ⟨H0, H1, H2, H3, Hc0, Hc1⟩
    isplitl [Hs0 Hs1 Hs2 Hs3 Hs4 Hs5 Hc0 Hc1 Hp]
    · isplitr [Hp]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hc0]; · iexists _; rw [← owns_whole]; iexact Hc0
        iexists _; rw [← owns_whole]; iexact Hc1
      · iexact Hp
    isplitl [Ho]; · iexact Ho
    isplitl [H0]; · iexists _; iexact H0
    isplitl [H1]; · iexists _; iexact H1
    isplitl [H2]; · iexists _; iexact H2
    iexists _; iexact H3
  · have hc : ¬ cond1 (grid1.coords t) := fun h => ht ((hcond1 t).mp h)
    iapply (sound_kernel1_B c Set.univ _ hc _ _ _ _ _ _ _ _ _ _ _ _ x0 x1 x2 s0 s1 _)
    isplitl [H0]; · iexact H0
    isplitl [H1]; · iexact H1
    isplitl [H2]; · iexact H2
    isplitl [H3]; · iexists _; iexact H3
    isplitl [Hc0]; · rw [owns_whole]; iexact Hc0
    isplitl [Hc1]; · rw [owns_whole]; iexact Hc1
    iintro ⟨H0, H1, H2, H3, Hc0, Hc1⟩
    isplitl [Hs0 Hs1 Hs2 Hs3 Hs4 Hs5 Hc0 Hc1 Hp]
    · isplitr [Hp]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hc0]; · iexists _; rw [← owns_whole]; iexact Hc0
        iexists _; rw [← owns_whole]; iexact Hc1
      · iexact Hp
    isplitl [Ho]; · iexact Ho
    isplitl [H0]; · iexists _; iexact H0
    isplitl [H1]; · iexists _; iexact H1
    isplitl [H2]; · iexists _; iexact H2
    iexists _; iexact H3

/-- The body obligation of pipeline 1 with every window forgotten, at every point. -/
theorem body_obligation1f (c : Dev nD) :
    BodyObligation (dat1f (F := F) V c) (defs₀ (F := F)) Variants.none () Set.univ (fgt := fun _ => true) := fun t => by
  rw [bigSep_W1]
  exact sound_body1 V c t

end Cert.Kernel.Hand

end
-- ==== Proof.KB.Run.lean ====
import proofs.«411351_j18451179503909_3_alg».proof.Proof.Gen.Kernel.Launch
import proofs.«411351_j18451179503909_3_alg».proof.Proof.Gen.Kernel.Skeleton
import proofs.«411351_j18451179503909_3_alg».proof.Proof.Gen.Kernel.Points
import proofs.«411351_j18451179503909_3_alg».proof.Proof.KB.Body
import Idealize.ShloMosaic.Lib.Pipeline.FrameBody
import Idealize.ShloMosaic.Lib.Pipeline.RegionsLoop
import Idealize.ShloMosaic.Lib.Pipeline.FrameSuffix
import Idealize.ShloMosaic.Lib.Tactic
import proofs.«411351_j18451179503909_3_alg».proof.Proof.KB.Data0
import proofs.«411351_j18451179503909_3_alg».proof.Proof.KB.Data1F
import proofs.«411351_j18451179503909_3_alg».proof.Proof.Gen.Kernel.Regions
import Idealize.ShloMosaic.Lib.Pipeline.Regions
import Idealize.ShloMosaic.Lib.Pipeline.Cells
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The run at the word level: the two regions as segments, from the launch to the return

Region 0 is certified with exact proof data: its arrays leave at named contents, which region 1 enters from.
Region 1 names nothing of what its body leaves; its input arrays are never written, so the second argument is
found at the exit as it was entered, and the first argument bypasses the region. -/

variable (m : (ℓ : Loc nD τ sig) → Buf (Elt F) ℓ) (ρ : Dev nD → PrngReg)

/-! ## The buffer contents at the two region entries -/

/-- Core `c`'s buffers at launch, -/
abbrev val0 : Dev nD → Valuation τ sig (Elt F) := fun c b => m ((c : Dev nD), b)
/-- read at the TensorCore's references (what region 0's proof data take). -/
abbrev ent0 : (c : Dev nD) → (b : Ref sig .tc) → Buf (Elt F) ((c : Thread nD τ).loc b) := fun c b => val0 m c b
/-- At region 0's exit: its arrays at what the pipeline leaves, every other buffer as launched. -/
def val1 (c : Dev nD) : Valuation τ sig (Elt F) :=
  Pipeline.withArrays spec0 c (val0 m c) fun w => (dat0 (ent0 m) c).arrAt w cfg0.N
theorem val1_arr (c : Dev nD) (w : Fin cfg0.W) :
    val1 m c (Proc.devRef .tc (Pipeline.arrRef spec0 w)) = (dat0 (ent0 m) c).arrAt w cfg0.N := by
  unfold val1; exact Pipeline.withArrays_arr spec0 launch0.win.arr_inj c _ _ w
theorem val1_of_ne (c : Dev nD) (b : Ref sig .tc) (hb : ∀ w, Pipeline.arrRef spec0 w ≠ b) :
    val1 m c (Proc.devRef .tc b) = val0 m c (Proc.devRef .tc b) := by
  unfold val1; exact Pipeline.withArrays_of_ne spec0 c _ _ b hb
/-- The same read at the TensorCore's references (what region 1's proof data take). -/
abbrev ent1 : (c : Dev nD) → (b : Ref sig .tc) → Buf (Elt F) ((c : Thread nD τ).loc b) := fun c b => val1 m c b
theorem hF0 (c : Dev nD) (w : Fin cfg0.W) : (dat0 (ent0 m) c).arrAt w cfg0.N = ent1 m c (Pipeline.arrRef spec0 w) :=
  (val1_arr m c w).symm
theorem hrest0 (c : Dev nD) : ∀ b, b ∉ Finset.univ.image (Pipeline.arrRef spec0) → ent1 m c b = ent0 m c b :=
  fun b hb => val1_of_ne m c b fun w e => hb (Finset.mem_image.mpr ⟨w, Finset.mem_univ _, e⟩)

/-- Region 0 writes neither argument: the first is its input, the second is none of its arrays. -/
theorem ent1_main_arg0 (c : Dev nD) : ent1 m c main_arg0 = m ((c : Thread nD τ).loc main_arg0) :=
  (val1_arr m c 0).trans (((dat0 (ent0 m) c).arrAt_in 0 rfl _).trans (A_eq0 (ent0 m) c 0))
theorem ent1_main_arg1 (c : Dev nD) : ent1 m c main_arg1 = m ((c : Thread nD τ).loc main_arg1) :=
  val1_of_ne m c main_arg1 (by decide)

/-! ## The proof data family and the thread state -/

/-- The exact proof data of both pipelines, each at its region's entry contents (region 1's names nothing). -/
def pdats : (p : Fin 2) → (c : Dev nD) → Dat τ (Elt F) Unit ℕ (UR sig nD τ) ℕ (Pipeline.pin (pcfgs (F := F)) adm p) c
  | ⟨0, _⟩ => fun c => dat0 (ent0 m) c
  | ⟨1, _⟩ => fun c => dat1f (ent1 m) c
/-- The same read relationally: region 0's constrains each window to what the exact data name, region 1's forgets
    every window. -/
def rdats : (p : Fin 2) → (c : Dev nD) → Pipeline.RDat τ (Elt F) Unit ℕ (UR sig nD τ) ℕ (Pipeline.pin (pcfgs (F := F)) adm p) c
  | ⟨0, _⟩ => fun c => (dat0 (ent0 m) c).toR
  | ⟨1, _⟩ => fun c => (dat1f (ent1 m) c).toRForget fun _ => true
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
/-- The last thread state without the dues: the two argument arrays as launched. -/
abbrev Tₙ (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

/-! ## The regions as segments -/

set_option backward.isDefEq.respectTransparency.types false in
/-- REGION 0 over the thread state: entered from every unscoped buffer as launched, left with its arrays at what
    the exact data name. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).toR
  hwaits := Pipeline.RDat.hwaits_of_owed_zero _ _ _ _ L lv 0 fun _ _ => rfl
  pre c := iprop(StableHlo.held (c : Thread nD τ) (Pipeline.ucRefs τ sig) (val0 m c) ∗ R c)
  post c := iprop(StableHlo.held (c : Thread nD τ) (Pipeline.ucRefs τ sig) (val1 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ent1 m c) ((pdats m 0 c).arrAt · cfg0.N) (hF0 m c) (hrest0 m c)
    rw [Pipeline.unscopedBufs_held] at hjoin
    rw [show (rdats m 0 c).arraysAt (Pipeline.pin (pcfgs (F := F)) adm 0).N = ((pdats m 0 c).arrays ((pdats m 0 c).arrAt · cfg0.N) : sProp 𝕄)
      from (dat0 (ent0 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- Region 1's third window is its input from the second argument: an input array is never written, so whatever
    contents the relational data allow it at the exit are those it was entered with, the launch contents. -/
theorem arr2_pt (c : Dev nD) (F2 : Buf (Elt F) (((Pipeline.pin (pcfgs (F := F)) adm 1).win (2 : Fin 4)).arr.view.loc (c : Thread nD τ)))
    (h : (rdats m 1 c).ArrAt (2 : Fin 4) (Pipeline.pin (pcfgs (F := F)) adm 1).N F2) :
    ((((Pipeline.pin (pcfgs (F := F)) adm 1).win (2 : Fin 4)).arr.view.loc (c : Thread nD τ))
        ↦[((Pipeline.pin (pcfgs (F := F)) adm 1).win (2 : Fin 4)).arr.view.set]{(rdats m 1 c).share (2 : Fin 4)} F2 : sProp 𝕄)
      ⊢ (((c : Thread nD τ).loc main_arg1) ↦{fullShare} m ((c : Thread nD τ).loc main_arg1)) := by
  rw [Pipeline.RDat.ArrAt_in (rdats m 1 c) 2 rfl] at h
  subst h
  have hs : ((Pipeline.pin (pcfgs (F := F)) adm 1).win (2 : Fin 4)).arr.view.set = Finset.univ := (launch1.arr_whole 2).set_eq_univ
  rw [hs, (rdats m 1 c).share_full (fun _ => rfl) 2,
    show (rdats m 1 c).A 2 = m ((c : Thread nD τ).loc main_arg1) from ent1_main_arg1 m c]
  exact .rfl

set_option backward.isDefEq.respectTransparency.types false in
/-- REGION 1 over the thread state: entered from every unscoped buffer at region 0's exit contents, left with the
    two argument arrays as launched — the second found where the input window's array was entered, the first
    bypassing the region — and nothing said of the result array. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1f (ent1 m) c).toRForget
  hwaits := Pipeline.RDat.hwaits_of_owed_zero _ _ _ _ L lv 1 fun _ _ => rfl
  pre c := iprop(StableHlo.held (c : Thread nD τ) (Pipeline.ucRefs τ sig) (val1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    unfold Pipeline.RDat.arraysAt
    rw [bigSep_W1, unscopedRest1_eq, show ent1 m c main_arg0 = m ((c : Thread nD τ).loc main_arg0) from ent1_main_arg0 m c]
    iintro ⟨⟨-, -, ⟨%F2, %hF2, Ha⟩, -⟩, HO, -, Hz⟩
    ihave Ha := (arr2_pt m c F2 hF2) $$ Ha
    imodintro
    isplitl [Ha Hz]
    · isplitl [Hz]; · iexact Hz
      iexact Ha
    unfold Pipeline.RDat.owesAt Pipeline.owesWithin
    icases HO with ⟨%W, -, HO⟩; iexists W; iexact HO

/-! ## @main as segments, and the launch -/

/-- @main's two segments in order: a region per pallas_call, no host stretch between them. -/
abbrev segs : List (Pipeline.RDat.Seg (pcfgs (F := F)) adm (rdats m) () defs₀ 𝒱₀ L lv) :=
  [ .region (reg0 m), .region (reg1 m) ]

set_option backward.isDefEq.respectTransparency.types false in
/-- THE FRAME at any float instance: from any memory with zero counters, every weakly fair execution of @main on
    the TensorCores terminates, nothing faulting, and both argument arrays end as launched. The launch deals every
    core its unscoped buffers, its generator register and its dues at nothing; the two regions chain through region
    0's exit contents; the last thread state holds the two argument arrays, read against the final state. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          Prog.lift (.customCall (Pipeline.entry 0) ()),
          Prog.lift (.customCall (Pipeline.entry 1) ()) ] from rfl]
      exact .rfl)
    (by simp only [segs, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (val0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (val0 m c)
        from Pipeline.unscopedBufs_held c (val0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      iintro ⟨⟨Ha0, Ha1⟩, HSI⟩
      icombine HSI Ha0 gives %h0
      icombine HSI Ha1 gives %h1
      imodintro
      isplitr
      · ipureintro
        exact ⟨Buf.eq_of_forall_mem_univ h0, Buf.eq_of_forall_mem_univ h1⟩
      · iexact HSI)
    (hQ := fun s h c => h c)

/-- The word-level kernel's frame: the statement of the certificate's claim about the printed program. -/
theorem frame_bits (m : (ℓ : Loc nD τ sig) → Buf (Elt Bits) ℓ) (ρ : Dev nD → PrngReg) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_any m ρ

end Cert.Kernel.Hand

end
-- ==== Proof.lean ====
/-
  The certificate of a pairwise squared-distance kernel against its jnp reference, over the extended reals.

  Both programs scale every row of `x` (4096 × 512) and of the proxies (10000 × 512) by
  `3 · rsqrt (max (Σ_j v[r,j]²) ε)` and return, at `(b, c)`, |a|² + |b|² − 2 a·b of the scaled rows `a`, `b`: the
  function `Cert.Spec.G` of the two argument arrays. The reference multiplies `3 · (v · rsqrt …)`, the kernel
  `v · (3 · rsqrt …)`: one product on the extended reals, by commutativity and associativity alone, so the
  precondition is never opened. The kernel is two pallas_calls: the first scales `x` in two row blocks and stores the
  scaled rows and their squared lengths; the second walks 4 column tiles × 8 row tiles, scales the proxy tile into
  scratch at the first row tile of each column tile, and writes one result block per point from the stored rows and
  the scratch. The last column tile overhangs the proxies and the result (10000 = 3·2560 + 2320): the rows past the
  array's end hold words nothing names, they reach only result columns past the array's end, and those are cut at the
  write-back — no sum runs over the column axis.

  The three frames: the reference's is its run with the result dropped; the idealized kernel's is its run over the
  two regions with every buffer named at the region boundaries, read at the arguments; the word-level kernel's names
  the first region's results and says nothing of what the second leaves (its matrix product is opaque in whole
  operands there), which a frame does not need. The value claim: the idealized kernel's run ends with the result array
  at `G` of the arguments, and so does the reference's.
-/
import proofs.«411351_j18451179503909_3_alg».proof.Defs
import proofs.«411351_j18451179503909_3_alg».proof.Proof.Gen.Kernel
import proofs.«411351_j18451179503909_3_alg».proof.Proof.Gen.KernelIdeal
import proofs.«411351_j18451179503909_3_alg».proof.Proof.Gen.ReferenceIdeal
import proofs.«411351_j18451179503909_3_alg».proof.Proof.Gen.ReferenceIdeal.Run
import proofs.«411351_j18451179503909_3_alg».proof.Proof.Gen.ReferenceIdeal.Read
import proofs.«411351_j18451179503909_3_alg».proof.Proof.Gen.Pre_finite_inputs
import proofs.«411351_j18451179503909_3_alg».proof.Proof.RefValue
import proofs.«411351_j18451179503909_3_alg».proof.Proof.KI.Run
import proofs.«411351_j18451179503909_3_alg».proof.Proof.KI.Value
import proofs.«411351_j18451179503909_3_alg».proof.Proof.KB.Run
import Idealize.ShloMosaic.Adequacy
import Idealize.ShloMosaic.Init

noncomputable section

namespace Cert.Proof

open Idealize.ShloMosaic Idealize.ShloMosaic.TcCoe Idealize.SL.Sem

/-- The word-level kernel runs and leaves both arguments as launched. -/
theorem frame_k : Cert.frame_Kernel := fun m ρ _ => Cert.Kernel.Hand.frame_bits m ρ

/-- The idealized kernel's run, read at the result and at the two arguments: the result array ends at `G` of the
    arguments, the arguments as launched. -/
theorem run_ki (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1)
            = Cert.Spec.G (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run (Cert.KernelIdeal.defs (F := Ideal)) _ _).mono
    (fun r h c =>
      ⟨(h c _ (Cert.KernelIdeal.Hand.mem_uc Cert.KernelIdeal.main_v1 (by decide))).trans (Cert.KernelIdeal.Hand.final_v1 m c),
       (h c _ (Cert.KernelIdeal.Hand.mem_uc Cert.KernelIdeal.main_arg0 (by decide))).trans (Cert.KernelIdeal.Hand.final_arg0 m c),
       (h c _ (Cert.KernelIdeal.Hand.mem_uc Cert.KernelIdeal.main_arg1 (by decide))).trans (Cert.KernelIdeal.Hand.final_arg1 m c)⟩)
    (Cert.KernelIdeal.Hand.run_main m ρ)

/-- The idealized kernel runs and leaves both arguments as launched. -/
theorem frame_ki : Cert.frame_KernelIdeal := fun m ρ _ =>
  (θ_run (Cert.KernelIdeal.defs (F := Ideal)) _ _).mono (fun _ h c => (h c).2) (run_ki m ρ)

/-- The reference runs and leaves both arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the idealized reading. -/
theorem preserves : Cert.preserves_Kernel_KernelIdeal := trivial

/-- From memories that agree on the arguments both idealized programs end with the result array at `G` of the
    arguments: the kernel by its run, the reference by its run read operation by operation. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), run_ki m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.RefValue.ref_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
